-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S1 .f32) (main_arg5 : FVec F S128x128 .f32) (main_arg6 : FVec F S128 .f32) (main_arg7 : FVec F S128x128 .f32) (main_arg8 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S32x8192x128 .f32) (main_arg1 : FVec F S128x128 .f32) (main_arg2 : FVec F S128 .f32) (main_arg3 : FVec F S128x1 .f32) (main_arg4 : FVec F S1 .f32) (main_arg5 : FVec F S128x128 .f32) (main_arg6 : FVec F S128 .f32) (main_arg7 : FVec F S128x128 .f32) (main_arg8 : FVec F S128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_arg7 main_arg8 main_v13 main_v16
-- ==== Kernel.lean ====
abbrev S32x8192x128 : Shape := ⟨3, ![32, 8192, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x256 : Shape := ⟨2, ![128, 256]⟩
abbrev S256 : Shape := ⟨1, ![256]⟩
abbrev S_ : Shape := ⟨0, ![]⟩
abbrev S256x256 : Shape := ⟨2, ![256, 256]⟩
abbrev S2 : Shape := ⟨1, ![2]⟩
abbrev S32x128 : Shape := ⟨2, ![32, 128]⟩
abbrev S16x512x128 : Shape := ⟨3, ![16, 512, 128]⟩
abbrev S16x128 : Shape := ⟨2, ![16, 128]⟩
abbrev S16x1 : Shape := ⟨2, ![16, 1]⟩
abbrev S8192x128 : Shape := ⟨2, ![8192, 128]⟩
abbrev S8192x256 : Shape := ⟨2, ![8192, 256]⟩
abbrev S1x256 : Shape := ⟨2, ![1, 256]⟩
abbrev S1x128 : Shape := ⟨2, ![1, 128]⟩
abbrev S16x512 : Shape := ⟨2, ![16, 512]⟩
abbrev S1x1 : Shape := ⟨2, ![1, 1]⟩
abbrev S16 : Shape := ⟨1, ![16]⟩
abbrev S16x1x512 : Shape := ⟨3, ![16, 1, 512]⟩
abbrev S16x1x128 : Shape := ⟨3, ![16, 1, 128]⟩

abbrev nBuf : Space → Nat
  | .hbm => 29
  | .vmem => 12
  | .smem => 0
  | _ => 0

abbrev bufTy : (tb : Table) → Fin (tcTables nBuf tb) → BufTy
  | .hbm, ⟨0, _⟩ => ⟨S32x8192x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S128x256, .bf16⟩
  | .hbm, ⟨11, _⟩ => ⟨S256, .f32⟩
  | .hbm, ⟨12, _⟩ => ⟨S_, .f32⟩
  | .hbm, ⟨13, _⟩ => ⟨S256x256, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S256x256, .f32⟩
  | .hbm, ⟨20, _⟩ => ⟨S128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S256x256, .f32⟩
  | .hbm, ⟨27, _⟩ => ⟨S256x256, .bf16⟩
  | .hbm, ⟨28, _⟩ => ⟨S32x128, .f32⟩
  | .local _ .vmem, ⟨0, _⟩ => ⟨S16x512x128, .f32⟩
  | .local _ .vmem, ⟨1, _⟩ => ⟨S16x512x128, .f32⟩
  | .local _ .vmem, ⟨2, _⟩ => ⟨S128x256, .bf16⟩
  | .local _ .vmem, ⟨3, _⟩ => ⟨S256, .f32⟩
  | .local _ .vmem, ⟨4, _⟩ => ⟨S256x256, .bf16⟩
  | .local _ .vmem, ⟨5, _⟩ => ⟨S128, .f32⟩
  | .local _ .vmem, ⟨6, _⟩ => ⟨S1, .f32⟩
  | .local _ .vmem, ⟨7, _⟩ => ⟨S16x128, .f32⟩
  | .local _ .vmem, ⟨8, _⟩ => ⟨S16x128, .f32⟩
  | .local _ .vmem, ⟨9, _⟩ => ⟨S16x1, .f32⟩
  | .local _ .vmem, ⟨10, _⟩ => ⟨S16x1, .f32⟩
  | .local _ .vmem, ⟨11, _⟩ => ⟨S16x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v72 : BitVec 1 := Scalar.cmpi .eq arg1 c15_i32
  let v73 : BitVec 32 := Scalar.extui v72
  let c0_i32_29 : BitVec 32 := 0#32
  let v74 : BitVec 1 := Scalar.cmpi .ne v73 c0_i32_29
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S128x128_S128x128_S128x256_d1 : Shape.Concatenates [S128x128, S128x128] S128x256 1
  bitsLt_bf16_f32 : FTy.bits .bf16 < FTy.bits .f32
  concatenates_S128_S128_S256_d0 : Shape.Concatenates [S128, S128] S256 0
  bcast_S_S256x256 : S_.BroadcastsInDim S256x256 (![] : Fin 0 → Fin S256x256.rank)
  bcast_S_S1 : S_.BroadcastsInDim S1 (![] : Fin 0 → Fin S1.rank)
  concatenates_S1_S1_S2_d0 : Shape.Concatenates [S1, S1] S2 0
  shapeCasts_S128x1_S128 : S128x1.ShapeCasts S128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x512x128_S16x512x128_0_0_0 : ∀ a, (![0, 0, 0] : Fin 3 → Nat) a + S16x512x128.size a ≤ S16x512x128.size a
  h_S16x512x128 : 0 < S16x512x128.numel
  shapeCasts_S16x512x128_S8192x128 : S16x512x128.ShapeCasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S8192x256 : S1x256.Broadcasts S8192x256
  slices_S8192x256_o0_0_S8192x128 : S8192x256.Slices ![0, 0] S8192x128
  slices_S8192x256_o0_128_S8192x128 : S8192x256.Slices ![0, 128] S8192x128
  concatenates_S8192x128_S8192x128_S8192x256_d1 : Shape.Concatenates [S8192x128, S8192x128] S8192x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S16x512x128 : S8192x128.ShapeCasts S16x512x128
  reduces_S16x512x128_S16x512 : S16x512x128.Reduces [2] S16x512
  inb_S1_S1_0 : ∀ a, (![0] : Fin 1 → Nat) a + S1.size a ≤ S1.size a
  h_S1 : 0 < S1.numel
  shapeCasts_S1_S1x1 : S1.ShapeCasts S1x1
  broadcasts_S1x1_S16x512 : S1x1.Broadcasts S16x512
  reduces_S16x512_S16 : S16x512.Reduces [1] S16
  shapeCasts_S16_S16x1 : S16.ShapeCasts S16x1
  broadcasts_S16x1_S16x512 : S16x1.Broadcasts S16x512
  shapeCasts_S16x512_S16x1x512 : S16x512.ShapeCasts S16x1x512
  shapeCasts_S16x1x128_S16x128 : S16x1x128.ShapeCasts S16x128
  broadcasts_S16x1_S16x128 : S16x1.Broadcasts S16x128
  scatter_S256x256_S2_S128x128_01_n_01_0_wf : ScatterDims.WF S256x256 S2 S128x128 [0, 1] [] [0, 1] 0
  scatter_S256x256_S2_S128_0_1_01_0_wf : ScatterDims.WF S256x256 S2 S128 [0] [1] [0, 1] 0
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S16x1x512_S16x512x128_S16x1x128_2_1_1_2_0_0_wf : DotDims.WF S16x1x512 S16x512x128 S16x1x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x128.size a ≤ S32x8192x128.size a
  hwx0_0 : ∀ i : grid0.Coords, EltTy.bits .f32 = 32 ∨ (Rect.block (s := S32x8192x128) S16x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S32x128.size a
  hwx0_6 : ∀ i : grid0.Coords, EltTy.bits .f32 = 32 ∨ (Rect.block (s := S32x128) S16x128.size (cc0_transform_6 i) (hinb0_6 i)).WholeWords (EltTy.packing .f32)

variable [Facts₀]

def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf
def scatter_S256x256_S2_S128_0_1_01_0 : ScatterDims S256x256 S2 S128 where
  updateWindowDims := [0]
  insertedWindowDims := [1]
  scatterDimsToOperandDims := [0, 1]
  indexVectorDim := 0
  wf := scatter_S256x256_S2_S128_0_1_01_0_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S16x1x512_S16x512x128_S16x1x128_2_1_1_2_0_0 : DotDims S16x1x512 S16x512x128 S16x1x128 where
  lhsContracting := [2]
  rhsContracting := [1]
  lhsNonContracting := [1]
  rhsNonContracting := [2]
  lhsBatch := [0]
  rhsBatch := [0]
  wf := dot_S16x1x512_S16x512x128_S16x1x128_2_1_1_2_0_0_wf

abbrev win0_0 : Pipeline.Window sig grid0 :=
  Pipeline.Window.ofSpec (Memref.whole main_arg0) S16x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S16x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8192x128 : Shape := ⟨3, ![32, 8192, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1x128 : Shape := ⟨3, ![1, 1, 128]⟩
abbrev S_ : Shape := ⟨0, ![]⟩
abbrev S32x8192x1 : Shape := ⟨3, ![32, 8192, 1]⟩
abbrev S1x1x1 : Shape := ⟨3, ![1, 1, 1]⟩
abbrev S32x1 : Shape := ⟨2, ![32, 1]⟩
abbrev S32x1x1 : Shape := ⟨3, ![32, 1, 1]⟩
abbrev S32x128 : Shape := ⟨2, ![32, 128]⟩

abbrev nBuf : Space → Nat
  | .hbm => 61
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S32x8192x128, .f32⟩
  | .hbm, ⟨10, _⟩ => ⟨S1x1x128, .f32⟩
  | .hbm, ⟨11, _⟩ => ⟨S32x8192x128, .f32⟩
  | .hbm, ⟨12, _⟩ => ⟨S32x8192x128, .f32⟩
  | .hbm, ⟨13, _⟩ => ⟨S32x8192x128, .f32⟩
  | .hbm, ⟨14, _⟩ => ⟨S32x8192x128, .f32⟩
  | .hbm, ⟨15, _⟩ => ⟨S_, .f32⟩
  | .hbm, ⟨16, _⟩ => ⟨S32x8192x128, .f32⟩
  | .hbm, ⟨17, _⟩ => ⟨S32x8192x128, .f32⟩
  | .hbm, ⟨18, _⟩ => ⟨S_, .f32⟩
  | .hbm, ⟨19, _⟩ => ⟨S32x8192x128, .f32⟩
  | .hbm, ⟨20, _⟩ => ⟨S32x8192x128, .f32⟩
  | .hbm, ⟨21, _⟩ => ⟨S32x8192x128, .f32⟩
  | .hbm, ⟨22, _⟩ => ⟨S32x8192x1, .f32⟩
  | .hbm, ⟨23, _⟩ => ⟨S1x1x1, .f32⟩
  | .hbm, ⟨24, _⟩ => ⟨S32x8192x1, .f32⟩
  | .hbm, ⟨25, _⟩ => ⟨S32x8192x1, .f32⟩
  | .hbm, ⟨26, _⟩ => ⟨S32x8192x128, .f32⟩
  | .hbm, ⟨27, _⟩ => ⟨S1x1x128, .f32⟩
  | .hbm, ⟨28, _⟩ => ⟨S32x8192x128, .f32⟩
  | .hbm, ⟨29, _⟩ => ⟨S32x8192x128, .f32⟩
  | .hbm, ⟨30, _⟩ => ⟨S32x8192x128, .f32⟩
  | .hbm, ⟨31, _⟩ => ⟨S32x8192x128, .f32⟩
  | .hbm, ⟨32, _⟩ => ⟨S_, .f32⟩
  | .hbm, ⟨33, _⟩ => ⟨S32x8192x128, .f32⟩
  | .hbm, ⟨34, _⟩ => ⟨S32x8192x128, .f32⟩
  | .hbm, ⟨35, _⟩ => ⟨S_, .f32⟩
  | .hbm, ⟨36, _⟩ => ⟨S32x8192x128, .f32⟩
  | .hbm, ⟨37, _⟩ => ⟨S32x8192x128, .f32⟩
  | .hbm, ⟨38, _⟩ => ⟨S32x8192x128, .f32⟩
  | .hbm, ⟨39, _⟩ => ⟨S32x8192x128, .f32⟩
  | .hbm, ⟨40, _⟩ => ⟨S1x1x128, .f32⟩
  | .hbm, ⟨41, _⟩ => ⟨S32x8192x128, .f32⟩
  | .hbm, ⟨42, _⟩ => ⟨S32x8192x128, .f32⟩
  | .hbm, ⟨43, _⟩ => ⟨S_, .f32⟩
  | .hbm, ⟨44, _⟩ => ⟨S32x1, .f32⟩
  | .hbm, ⟨45, _⟩ => ⟨S_, .f32⟩
  | .hbm, ⟨46, _⟩ => ⟨S32x1, .f32⟩
  | .hbm, ⟨47, _⟩ => ⟨S32x1, .f32⟩
  | .hbm, ⟨48, _⟩ => ⟨S32x1x1, .f32⟩
  | .hbm, ⟨49, _⟩ => ⟨S32x8192x1, .f32⟩
  | .hbm, ⟨50, _⟩ => ⟨S32x8192x1, .f32⟩
  | .hbm, ⟨51, _⟩ => ⟨S32x8192x1, .f32⟩
  | .hbm, ⟨52, _⟩ => ⟨S_, .f32⟩
  | .hbm, ⟨53, _⟩ => ⟨S32x1, .f32⟩
  | .hbm, ⟨54, _⟩ => ⟨S32x1x1, .f32⟩
  | .hbm, ⟨55, _⟩ => ⟨S32x8192x1, .f32⟩
  | .hbm, ⟨56, _⟩ => ⟨S32x8192x1, .f32⟩
  | .hbm, ⟨57, _⟩ => ⟨S32x8192x128, .f32⟩
  | .hbm, ⟨58, _⟩ => ⟨S32x8192x128, .f32⟩
  | .hbm, ⟨59, _⟩ => ⟨S_, .f32⟩
  | .hbm, ⟨60, _⟩ => ⟨S32x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x8192x128_0_1_2 : S1x1x128.BroadcastsInDim S32x8192x128 (![0, 1, 2] : Fin 3 → Fin S32x8192x128.rank)
  bcast_S_S32x8192x128 : S_.BroadcastsInDim S32x8192x128 (![] : Fin 0 → Fin S32x8192x128.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x1_d1 : S32x8192x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x8192x1_0_1_2 : S32x1x1.BroadcastsInDim S32x8192x1 (![0, 1, 2] : Fin 3 → Fin S32x8192x1.rank)
  bcast_S32x8192x1_S32x8192x128_0_1_2 : S32x8192x1.BroadcastsInDim S32x8192x128 (![0, 1, 2] : Fin 3 → Fin S32x8192x128.rank)
  reducesTo_S32x8192x128_S32x128_d1 : S32x8192x128.ReducesTo [1] S32x128
  dot_S32x8192x128_S128x128_S32x8192x128_2_0_01_1_n_n_wf : DotDims.WF S32x8192x128 S128x128 S32x8192x128 [2] [0] [0, 1] [1] [] []
  dot_S32x8192x128_S128x1_S32x8192x1_2_0_01_1_n_n_wf : DotDims.WF S32x8192x128 S128x1 S32x8192x1 [2] [0] [0, 1] [1] [] []

variable [Facts₀]

def dot_S32x8192x128_S128x128_S32x8192x128_2_0_01_1_n_n : DotDims S32x8192x128 S128x128 S32x8192x128 where
  lhsContracting := [2]
  rhsContracting := [0]
  lhsNonContracting := [0, 1]
  rhsNonContracting := [1]
  lhsBatch := []
  rhsBatch := []
  wf := dot_S32x8192x128_S128x128_S32x8192x128_2_0_01_1_n_n_wf
def dot_S32x8192x128_S128x1_S32x8192x1_2_0_01_1_n_n : DotDims S32x8192x128 S128x1 S32x8192x1 where
  lhsContracting := [2]
  rhsContracting := [0]
  lhsNonContracting := [0, 1]
  rhsNonContracting := [1]
  lhsBatch := []
  rhsBatch := []
  wf := dot_S32x8192x128_S128x1_S32x8192x1_2_0_01_1_n_n_wf

class Facts : Prop extends Facts₀ where

variable [Facts]
-- ==== Proof.Pieces.lean ====
/-
  What each kind of grid point leaves in the three carried buffers (running maximum, normaliser, weighted sum) and
  in the output block, as the body's arithmetic applied to the point's input blocks and to what the buffers held.

  At a graph-half's first tile the buffers are first reset (-∞, 0, 0) and the update then reads the reset values; at
  the other tiles it reads what the tile before left; at the last tile the output block is the quotient of the
  updated weighted sum by the updated normaliser.
-/
import proofs.«403798_j7215545057977_3_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

/-- The offsets of a load or store of a whole rank-1 buffer are all zero. -/
private theorem hz1 : (![0] : Fin 1 → Nat) = fun _ => 0 := funext fun a => by fin_cases a <;> rfl

/-- The offsets of a load or store of a whole rank-2 buffer are all zero. -/
private theorem hz2 : (![0, 0] : Fin 2 → Nat) = fun _ => 0 := funext fun a => by fin_cases a <;> rfl

/-- The offsets of a load or store of a whole rank-3 buffer are all zero. -/
private theorem hz3 : (![0, 0, 0] : Fin 3 → Nat) = fun _ => 0 := funext fun a => by fin_cases a <;> rfl

/-- First tile, running maximum: the reset stores -∞, the update reads it back and stores the maximum of it and the
    tile's row maxima (the later store covers the whole buffer, so it alone is what the buffer holds). -/
theorem sout0_A_0_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i)
    (x0 : Vec F S16x512x128 .f32) (x1 : Vec F S128x256 .bf16) (x2 : Vec F S256 .f32) (x3 : Vec F S256x256 .bf16) (x4 : Vec F S128 .f32) (x5 : Vec F S1 .f32) :
    sout0_A_0 (F := F) c i arg2 harg2 arg3 harg3 arg4 harg4 arg5 harg5 arg6 harg6 arg7 harg7 arg8 harg8 arg9 harg9 arg10 harg10 arg11 harg11 hc0 hc1 x0 x1 x2 x3 x4 x5
      = k0_pay6 (k0_pay14 x0 x1 x2 x3 x5) k0_pay8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S16x1) hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2, View.readCov_unit_zero (S := S16x1) _ hz2, View.readCov_unit_zero (S := S16x128) _ hz2]

/-- First tile, normaliser: reset to 0, then rescaled by exp(old max - new max) and increased by the tile's sum of
    exponentials; both maxima read are the reset value -∞, the old normaliser read is the reset value 0. -/
theorem sout0_A_1_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i)
    (x0 : Vec F S16x512x128 .f32) (x1 : Vec F S128x256 .bf16) (x2 : Vec F S256 .f32) (x3 : Vec F S256x256 .bf16) (x4 : Vec F S128 .f32) (x5 : Vec F S1 .f32) :
    sout0_A_1 (F := F) c i arg2 harg2 arg3 harg3 arg4 harg4 arg5 harg5 arg6 harg6 arg7 harg7 arg8 harg8 arg9 harg9 arg10 harg10 arg11 harg11 hc0 hc1 x0 x1 x2 x3 x4 x5
      = k0_pay4 (k0_pay13 x0 x1 x2 x3 x5) (k0_pay14 x0 x1 x2 x3 x5) k0_pay8 k0_pay8 k0_pay9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S16x1) hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2, View.readCov_unit_zero (S := S16x1) _ hz2, View.readCov_unit_zero (S := S16x128) _ hz2]

/-- First tile, weighted sum: reset to 0, then rescaled and increased by the tile's exponentials times its features;
    the old sum read is the reset value 0. -/
theorem sout0_A_2_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : cond0_0 i) (hc1 : ¬cond0_1 i)
    (x0 : Vec F S16x512x128 .f32) (x1 : Vec F S128x256 .bf16) (x2 : Vec F S256 .f32) (x3 : Vec F S256x256 .bf16) (x4 : Vec F S128 .f32) (x5 : Vec F S1 .f32) :
    sout0_A_2 (F := F) c i arg2 harg2 arg3 harg3 arg4 harg4 arg5 harg5 arg6 harg6 arg7 harg7 arg8 harg8 arg9 harg9 arg10 harg10 arg11 harg11 hc0 hc1 x0 x1 x2 x3 x4 x5
      = k0_pay5 (k0_pay12 x0 x1 x2 x3 x4) (k0_pay13 x0 x1 x2 x3 x5) (k0_pay14 x0 x1 x2 x3 x5) k0_pay8 k0_pay8 k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S16x128) hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2, View.readCov_unit_zero (S := S16x1) _ hz2, View.readCov_unit_zero (S := S16x128) _ hz2]

/-- Middle tile, running maximum: one covering store of the maximum of what the buffer held and the tile's row maxima. -/
theorem sout0_B_0_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : ¬cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    sout0_B_0 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay6 (k0_pay14 x0 x1 x2 x3 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2]

/-- Middle tile, normaliser: one covering store; both loads of the running maximum read what the tile before left. -/
theorem sout0_B_1_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : ¬cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    sout0_B_1 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay4 (k0_pay13 x0 x1 x2 x3 x5) (k0_pay14 x0 x1 x2 x3 x5) xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2]

/-- Middle tile, weighted sum: one covering store over what the tile before left. -/
theorem sout0_B_2_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : ¬cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    sout0_B_2 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay5 (k0_pay12 x0 x1 x2 x3 x4) (k0_pay13 x0 x1 x2 x3 x5) (k0_pay14 x0 x1 x2 x3 x5) xs0 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2]

/-- Last tile, running maximum: as at a middle tile. -/
theorem sout0_C_0_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    sout0_C_0 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay6 (k0_pay14 x0 x1 x2 x3 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2]

/-- Last tile, normaliser: as at a middle tile. -/
theorem sout0_C_1_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    sout0_C_1 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay4 (k0_pay13 x0 x1 x2 x3 x5) (k0_pay14 x0 x1 x2 x3 x5) xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2]

/-- Last tile, weighted sum: as at a middle tile. -/
theorem sout0_C_2_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    sout0_C_2 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay5 (k0_pay12 x0 x1 x2 x3 x4) (k0_pay13 x0 x1 x2 x3 x5) (k0_pay14 x0 x1 x2 x3 x5) xs0 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2]

/-- Last tile, output block: the quotient of the weighted sum just stored by the normaliser just stored (the two final
    loads read back the covering stores of this same tile). -/
theorem out0_C_6_eq (c : Dev nD) (i : grid0.Coords) (arg2 : Memref sig .tc .vmem S16x512x128 .f32) (harg2 : arg2.IsWhole) (arg3 : Memref sig .tc .vmem S128x256 .bf16) (harg3 : arg3.IsWhole) (arg4 : Memref sig .tc .vmem S256 .f32) (harg4 : arg4.IsWhole) (arg5 : Memref sig .tc .vmem S256x256 .bf16) (harg5 : arg5.IsWhole) (arg6 : Memref sig .tc .vmem S128 .f32) (harg6 : arg6.IsWhole) (arg7 : Memref sig .tc .vmem S1 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x128 .f32) (harg11 : arg11.IsWhole) (hc0 : ¬cond0_0 i) (hc1 : cond0_1 i)
    (x0 : Vec F S16x512x128 .f32) (x1 : Vec F S128x256 .bf16) (x2 : Vec F S256 .f32) (x3 : Vec F S256x256 .bf16) (x4 : Vec F S128 .f32) (x5 : Vec F S1 .f32) (xs0 : Vec F S16x1 .f32) (xs1 : Vec F S16x1 .f32) (xs2 : Vec F S16x128 .f32) :
    out0_C_6 (F := F) c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay7 (k0_pay5 (k0_pay12 x0 x1 x2 x3 x4) (k0_pay13 x0 x1 x2 x3 x5) (k0_pay14 x0 x1 x2 x3 x5) xs0 xs0 xs2) (k0_pay4 (k0_pay13 x0 x1 x2 x3 x5) (k0_pay14 x0 x1 x2 x3 x5) xs0 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread, harg11.read_unread, View.ld_unit_zero (S := S16x512x128) hz3, View.ld_unit_zero (S := S128x256) hz2, View.ld_unit_zero (S := S256) hz1, View.ld_unit_zero (S := S256x256) hz2, View.ld_unit_zero (S := S128) hz1, View.ld_unit_zero (S := S1) hz1, View.ld_unit_zero (S := S16x1) hz2, View.ld_unit_zero (S := S16x128) hz2, View.readCov_unit_zero (S := S16x1) _ hz2, View.readCov_unit_zero (S := S16x128) _ hz2]

end Cert.KernelIdeal.Pieces

end
-- ==== Proof.LibOnlineSoftmax.lean ====
/-
  The blockwise "online softmax" recurrence computes softmax-weighted sums.

  A row of scores is visited block by block.  The recurrence keeps a running maximum m,
  a running normaliser l and a running weighted sum a, all taken RELATIVE to the current
  maximum; when a new block raises the maximum from μ to μ', the old totals are rescaled by
  exp (μ - μ'), because exp (μ - μ') · exp (x - μ) = exp (x - μ').  After all blocks,
  a / l = (∑ exp (x - M) · v) / (∑ exp (x - M)) with M the global maximum, which is the
  softmax-weighted sum.  Masked scores are ⊥ and weigh exp ⊥ = 0 at every stage.
-/
import Idealize.ShloMosaic.PureOps.Ideal
import Mathlib.Data.EReal.Operations
import Mathlib.Data.Finset.Fold
import Mathlib.Data.Fintype.BigOperators
import Mathlib.Algebra.BigOperators.Group.Finset.Basic
import Mathlib.Algebra.Order.BigOperators.Group.Finset

namespace OnlineSoftmax
open Idealize.ShloMosaic
open scoped BigOperators

variable {B : ℕ}

noncomputable def stepM (m : EReal) (s : Fin B → EReal) : EReal :=
  max m ((Finset.univ : Finset (Fin B)).fold max ⊥ s)

noncomputable def stepL (m l : EReal) (s : Fin B → EReal) : EReal :=
  Ideal.exp (m - stepM m s) * l + ∑ j, Ideal.exp (s j - stepM m s)

noncomputable def stepA (m a : EReal) (s v : Fin B → EReal) : EReal :=
  Ideal.exp (m - stepM m s) * a + ∑ j, Ideal.exp (s j - stepM m s) * v j

/-- the state (m, l, a) after the first n blocks -/
noncomputable def run (s v : ℕ → Fin B → EReal) : ℕ → EReal × EReal × EReal
  | 0 => (⊥, 0, 0)
  | n + 1 => (stepM (run s v n).1 (s n), stepL (run s v n).1 (run s v n).2.1 (s n),
      stepA (run s v n).1 (run s v n).2.2 (s n) (v n))

/-- real or masked -/
def RealOrBot (x : EReal) : Prop := x = ⊥ ∨ ∃ r : ℝ, x = (r : EReal)

theorem run_succ (s v : ℕ → Fin B → EReal) (n : ℕ) :
    run s v (n + 1) = (stepM (run s v n).1 (s n), stepL (run s v n).1 (run s v n).2.1 (s n),
      stepA (run s v n).1 (run s v n).2.2 (s n) (v n)) := rfl

/-! ### The weight of a score relative to a real level -/

/-- exp (x - μ) as a real number, with the masked score weighing 0. -/
noncomputable def wt (x : EReal) (μ : ℝ) : ℝ := if x = ⊥ then 0 else Real.exp (x.toReal - μ)

theorem wt_bot (μ : ℝ) : wt ⊥ μ = 0 := if_pos rfl

theorem wt_coe (r μ : ℝ) : wt (r : EReal) μ = Real.exp (r - μ) := by
  rw [wt, if_neg (EReal.coe_ne_bot r), EReal.toReal_coe]

theorem wt_nonneg (x : EReal) (μ : ℝ) : 0 ≤ wt x μ := by
  unfold wt
  split_ifs
  · exact le_rfl
  · exact (Real.exp_pos _).le

/-- Raising the level from μ to μ' rescales every weight by exp (μ - μ'). -/
theorem wt_rescale (x : EReal) (μ μ' : ℝ) : Real.exp (μ - μ') * wt x μ = wt x μ' := by
  unfold wt
  split_ifs
  · exact mul_zero _
  · rw [← Real.exp_add]
    congr 1
    ring

theorem exp_sub_coe {x : EReal} (hx : RealOrBot x) (μ : ℝ) :
    Ideal.exp (x - (μ : EReal)) = ((wt x μ : ℝ) : EReal) := by
  rcases hx with rfl | ⟨r, rfl⟩
  · rw [EReal.bot_sub, Ideal.exp_bot, wt_bot, EReal.coe_zero]
  · rw [← EReal.coe_sub, Ideal.exp_coe, wt_coe]

/-- The coercion of the reals into the extended reals commutes with finite sums. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-! ### Maxima of real-or-masked families -/

theorem realOrBot_max {x y : EReal} (hx : RealOrBot x) (hy : RealOrBot y) :
    RealOrBot (max x y) := by
  rcases max_choice x y with h | h <;> rw [h] <;> assumption

theorem realOrBot_fold {ι : Type*} (t : Finset ι) (f : ι → EReal)
    (hf : ∀ i ∈ t, RealOrBot (f i)) : RealOrBot (t.fold max ⊥ f) := by
  classical
  induction t using Finset.induction_on with
  | empty => exact Or.inl rfl
  | insert a t ha ih =>
    rw [Finset.fold_insert ha]
    exact realOrBot_max (hf a (Finset.mem_insert_self _ _))
      (ih fun i hi => hf i (Finset.mem_insert_of_mem hi))

theorem real_of_le {x : EReal} (hx : RealOrBot x) {r : ℝ} (h : (r : EReal) ≤ x) :
    ∃ μ : ℝ, x = (μ : EReal) := by
  rcases hx with rfl | h'
  · exact absurd (le_bot_iff.mp h) (EReal.coe_ne_bot r)
  · exact h'

/-- The running maximum is the maximum over all visited scores. -/
theorem run_max (s v : ℕ → Fin B → EReal) (n : ℕ) :
    (run s v n).1
      = (Finset.range n).fold max ⊥ (fun k => (Finset.univ : Finset (Fin B)).fold max ⊥ (s k)) := by
  induction n with
  | zero => rfl
  | succ n ih =>
    rw [run_succ, Finset.range_add_one, Finset.fold_insert Finset.notMem_range_self, ← ih]
    exact max_comm _ _

/-! ### One block -/

/-- One block, from a real-or-masked maximum and real totals, when the new maximum is real. -/
theorem step_state {m : EReal} (hm : RealOrBot m) (L A : ℝ) {s v : Fin B → EReal}
    (hs : ∀ j, RealOrBot (s j)) (hv : ∀ j, ∃ r : ℝ, v j = (r : EReal)) {r : ℝ}
    (hr : (r : EReal) ≤ stepM m s) :
    ∃ μ' : ℝ, stepM m s = (μ' : EReal)
      ∧ stepL m (L : EReal) s = ((wt m μ' * L + ∑ j, wt (s j) μ' : ℝ) : EReal)
      ∧ stepA m (A : EReal) s v
          = ((wt m μ' * A + ∑ j, wt (s j) μ' * (v j).toReal : ℝ) : EReal) := by
  have hM : RealOrBot (stepM m s) :=
    realOrBot_max hm (realOrBot_fold _ _ fun j _ => hs j)
  obtain ⟨μ', hμ⟩ := real_of_le hM hr
  refine ⟨μ', hμ, ?_, ?_⟩
  · have h1 : ∑ j, Ideal.exp (s j - (μ' : EReal)) = ∑ j, ((wt (s j) μ' : ℝ) : EReal) :=
      Finset.sum_congr rfl fun j _ => exp_sub_coe (hs j) μ'
    rw [stepL, hμ, exp_sub_coe hm, h1, coe_sum, ← EReal.coe_mul, ← EReal.coe_add]
  · have h1 : ∑ j, Ideal.exp (s j - (μ' : EReal)) * v j
        = ∑ j, ((wt (s j) μ' * (v j).toReal : ℝ) : EReal) :=
      Finset.sum_congr rfl fun j _ => by
        obtain ⟨q, hq⟩ := hv j
        rw [exp_sub_coe (hs j) μ', hq, EReal.toReal_coe, ← EReal.coe_mul]
    rw [stepA, hμ, exp_sub_coe hm, h1, coe_sum, ← EReal.coe_mul, ← EReal.coe_add]

/-! ### The totals over the visited scores, relative to a level -/

noncomputable def Lr (s : ℕ → Fin B → EReal) (n : ℕ) (μ : ℝ) : ℝ :=
  ∑ k ∈ Finset.range n, ∑ j, wt (s k j) μ

noncomputable def Ar (s v : ℕ → Fin B → EReal) (n : ℕ) (μ : ℝ) : ℝ :=
  ∑ k ∈ Finset.range n, ∑ j, wt (s k j) μ * (v k j).toReal

theorem Lr_rescale (s : ℕ → Fin B → EReal) (n : ℕ) (μ μ' : ℝ) :
    Real.exp (μ - μ') * Lr s n μ = Lr s n μ' := by
  unfold Lr
  rw [Finset.mul_sum]
  refine Finset.sum_congr rfl fun k _ => ?_
  rw [Finset.mul_sum]
  exact Finset.sum_congr rfl fun j _ => wt_rescale _ _ _

theorem Ar_rescale (s v : ℕ → Fin B → EReal) (n : ℕ) (μ μ' : ℝ) :
    Real.exp (μ - μ') * Ar s v n μ = Ar s v n μ' := by
  unfold Ar
  rw [Finset.mul_sum]
  refine Finset.sum_congr rfl fun k _ => ?_
  rw [Finset.mul_sum]
  refine Finset.sum_congr rfl fun j _ => ?_
  rw [← mul_assoc, wt_rescale]

theorem Lr_pos (s : ℕ → Fin B → EReal) {n : ℕ} (hn : 0 < n) (μ : ℝ) {j0 : Fin B} {r : ℝ}
    (h0 : s 0 j0 = (r : EReal)) : 0 < Lr s n μ := by
  unfold Lr
  refine Finset.sum_pos' (fun k _ => Finset.sum_nonneg fun j _ => wt_nonneg _ _)
    ⟨0, Finset.mem_range.mpr hn, ?_⟩
  refine Finset.sum_pos' (fun j _ => wt_nonneg _ _) ⟨j0, Finset.mem_univ _, ?_⟩
  rw [h0, wt_coe]
  exact Real.exp_pos _

/-- After n + 1 blocks the state is (μ, ∑ exp (x - μ), ∑ exp (x - μ) · v) over the visited
    scores, for a real μ. -/
theorem run_inv (s v : ℕ → Fin B → EReal) (h0 : ∃ j, ∃ r : ℝ, s 0 j = (r : EReal)) (n : ℕ) :
    (∀ k < n + 1, ∀ j, RealOrBot (s k j)) → (∀ k < n + 1, ∀ j, ∃ r : ℝ, v k j = (r : EReal)) →
      ∃ μ : ℝ, run s v (n + 1)
        = ((μ : EReal), ((Lr s (n + 1) μ : ℝ) : EReal), ((Ar s v (n + 1) μ : ℝ) : EReal)) := by
  induction n with
  | zero =>
    intro hs hv
    obtain ⟨j0, r, hr0⟩ := h0
    have hr : (r : EReal) ≤ stepM ⊥ (s 0) := by
      refine le_max_of_le_right ?_
      exact (Finset.le_fold_max _).mpr (Or.inr ⟨j0, Finset.mem_univ _, hr0.ge⟩)
    obtain ⟨μ', hM, hL, hA⟩ := step_state (Or.inl rfl) 0 0 (hs 0 (by omega)) (hv 0 (by omega)) hr
    rw [EReal.coe_zero] at hL hA
    refine ⟨μ', ?_⟩
    have e1 : wt ⊥ μ' * 0 + ∑ j, wt (s 0 j) μ' = Lr s (0 + 1) μ' := by
      unfold Lr
      rw [Finset.sum_range_one, mul_zero, zero_add]
    have e2 : wt ⊥ μ' * 0 + ∑ j, wt (s 0 j) μ' * (v 0 j).toReal = Ar s v (0 + 1) μ' := by
      unfold Ar
      rw [Finset.sum_range_one, mul_zero, zero_add]
    rw [e1] at hL
    rw [e2] at hA
    rw [run_succ]
    show (stepM ⊥ (s 0), stepL ⊥ 0 (s 0), stepA ⊥ 0 (s 0) (v 0)) = _
    rw [hM, hL, hA]
  | succ n ih =>
    intro hs hv
    obtain ⟨μ, hμ⟩ := ih (fun k hk => hs k (by omega)) (fun k hk => hv k (by omega))
    have hr : (μ : EReal) ≤ stepM (μ : EReal) (s (n + 1)) := le_max_left _ _
    obtain ⟨μ', hM, hL, hA⟩ := step_state (Or.inr ⟨μ, rfl⟩) (Lr s (n + 1) μ) (Ar s v (n + 1) μ)
      (hs (n + 1) (by omega)) (hv (n + 1) (by omega)) hr
    refine ⟨μ', ?_⟩
    have e1 : wt (μ : EReal) μ' * Lr s (n + 1) μ + ∑ j, wt (s (n + 1) j) μ'
        = Lr s (n + 1 + 1) μ' := by
      rw [wt_coe, Lr_rescale]
      unfold Lr
      rw [Finset.sum_range_succ _ (n + 1)]
    have e2 : wt (μ : EReal) μ' * Ar s v (n + 1) μ + ∑ j, wt (s (n + 1) j) μ' * (v (n + 1) j).toReal
        = Ar s v (n + 1 + 1) μ' := by
      rw [wt_coe, Ar_rescale]
      unfold Ar
      rw [Finset.sum_range_succ _ (n + 1)]
    rw [e1] at hL
    rw [e2] at hA
    rw [run_succ, hμ]
    show (stepM (μ : EReal) (s (n + 1)), stepL (μ : EReal) _ (s (n + 1)),
      stepA (μ : EReal) _ (s (n + 1)) (v (n + 1))) = _
    rw [hM, hL, hA]

/-! ### Reindexing a sum over all keys by the visited ones -/

theorem sum_visited {κ : Type} [Fintype κ] {n : ℕ} (e : Fin n × Fin B → κ)
    (he : Function.Injective e) (g : κ → ℝ) (f : ℕ → Fin B → ℝ)
    (hg : ∀ x, x ∉ Set.range e → g x = 0) (hf : ∀ p, g (e p) = f p.1.val p.2) :
    ∑ x, g x = ∑ k ∈ Finset.range n, ∑ j, f k j :=
  calc ∑ x, g x = ∑ p : Fin n × Fin B, f p.1.val p.2 :=
        (Fintype.sum_of_injective e he _ g hg (fun p => (hf p).symm)).symm
    _ = ∑ k : Fin n, ∑ j, f k.val j := Fintype.sum_prod_type _
    _ = ∑ k ∈ Finset.range n, ∑ j, f k j := Fin.sum_univ_eq_sum_range (fun k => ∑ j, f k j) n

/-- The maximum over all keys is the maximum over the visited scores: the others are masked. -/
theorem fold_all_eq_visited {κ : Type} [Fintype κ] {n : ℕ} (s : ℕ → Fin B → EReal)
    (S : κ → EReal) (e : Fin n × Fin B → κ) (hS : ∀ p, S (e p) = s p.1.val p.2)
    (hout : ∀ x, x ∉ Set.range e → S x = ⊥) :
    (Finset.univ : Finset κ).fold max ⊥ S
      = (Finset.range n).fold max ⊥ (fun k => (Finset.univ : Finset (Fin B)).fold max ⊥ (s k)) := by
  refine eq_of_forall_ge_iff fun c => ?_
  rw [Finset.fold_max_le, Finset.fold_max_le]
  constructor
  · rintro ⟨hb, h⟩
    refine ⟨hb, fun k hk => ?_⟩
    rw [Finset.fold_max_le]
    refine ⟨hb, fun j _ => ?_⟩
    have := h (e (⟨k, Finset.mem_range.mp hk⟩, j)) (Finset.mem_univ _)
    rwa [hS] at this
  · rintro ⟨hb, h⟩
    refine ⟨hb, fun x _ => ?_⟩
    by_cases hx : x ∈ Set.range e
    · obtain ⟨p, rfl⟩ := hx
      rw [hS]
      have := h p.1.val (Finset.mem_range.mpr p.1.isLt)
      rw [Finset.fold_max_le] at this
      exact this.2 p.2 (Finset.mem_univ _)
    · rw [hout x hx]
      exact hb

theorem run_eq_softmax {κ : Type} [Fintype κ] (s v : ℕ → Fin B → EReal) (n : ℕ) (hn : 0 < n)
    (S V : κ → EReal) (e : Fin n × Fin B → κ) (he : Function.Injective e)
    (hS : ∀ p, S (e p) = s p.1.val p.2) (hV : ∀ p, V (e p) = v p.1.val p.2)
    (hout : ∀ x, x ∉ Set.range e → S x = ⊥)
    (hs : ∀ k < n, ∀ j, RealOrBot (s k j)) (h0 : ∃ j, ∃ r : ℝ, s 0 j = (r : EReal))
    (hv : ∀ x, ∃ r : ℝ, V x = (r : EReal)) :
    Ideal.div (run s v n).2.2 (run s v n).2.1
      = ∑ x : κ, Ideal.div (Ideal.exp (S x - (Finset.univ : Finset κ).fold max ⊥ S))
          (∑ y : κ, Ideal.exp (S y - (Finset.univ : Finset κ).fold max ⊥ S)) * V x := by
  obtain ⟨n', rfl⟩ := Nat.exists_eq_succ_of_ne_zero hn.ne'
  have hvv : ∀ k < n' + 1, ∀ j, ∃ r : ℝ, v k j = (r : EReal) := fun k hk j => by
    obtain ⟨r, hr⟩ := hv (e (⟨k, hk⟩, j))
    exact ⟨r, by rw [← hr, hV]⟩
  obtain ⟨μ, hμ⟩ := run_inv s v h0 n' hs hvv
  -- the global maximum is the running maximum μ
  have hM : (Finset.univ : Finset κ).fold max ⊥ S = (μ : EReal) := by
    rw [fold_all_eq_visited s S e hS hout, ← run_max s v, hμ]
  have hSr : ∀ x, RealOrBot (S x) := fun x => by
    by_cases hx : x ∈ Set.range e
    · obtain ⟨p, rfl⟩ := hx
      rw [hS]
      exact hs _ p.1.isLt _
    · exact Or.inl (hout x hx)
  obtain ⟨j0, r0, hr0⟩ := h0
  have hLpos : 0 < Lr s (n' + 1) μ := Lr_pos s (Nat.succ_pos _) μ hr0
  have hLne : Lr s (n' + 1) μ ≠ 0 := hLpos.ne'
  -- the normaliser over all keys is the normaliser over the visited scores
  have hL : ∑ y, wt (S y) μ = Lr s (n' + 1) μ :=
    sum_visited e he (fun y => wt (S y) μ) (fun k j => wt (s k j) μ)
      (fun x hx => by show wt (S x) μ = 0; rw [hout x hx, wt_bot])
      (fun p => by show wt (S (e p)) μ = _; rw [hS])
  have hA : ∑ x, wt (S x) μ * (V x).toReal = Ar s v (n' + 1) μ :=
    sum_visited e he (fun x => wt (S x) μ * (V x).toReal)
      (fun k j => wt (s k j) μ * (v k j).toReal)
      (fun x hx => by show wt (S x) μ * _ = 0; rw [hout x hx, wt_bot, zero_mul])
      (fun p => by show wt (S (e p)) μ * (V (e p)).toReal = _; rw [hS, hV])
  have hden : ∑ y, Ideal.exp (S y - (μ : EReal)) = ((Lr s (n' + 1) μ : ℝ) : EReal) := by
    rw [← hL, ← coe_sum]
    exact Finset.sum_congr rfl fun y _ => exp_sub_coe (hSr y) μ
  have hterm : ∀ x, Ideal.div (Ideal.exp (S x - (μ : EReal))) ((Lr s (n' + 1) μ : ℝ) : EReal) * V x
      = ((wt (S x) μ * (V x).toReal * (1 / Lr s (n' + 1) μ) : ℝ) : EReal) := fun x => by
    obtain ⟨q, hq⟩ := hv x
    rw [Ideal.div_coe hLne, exp_sub_coe (hSr x) μ, hq, EReal.toReal_coe, ← EReal.coe_mul,
      ← EReal.coe_mul]
    congr 1
    ring
  rw [hM, hden, Finset.sum_congr rfl fun x _ => hterm x, coe_sum, ← Finset.sum_mul, hA, hμ]
  show Ideal.div ((Ar s v (n' + 1) μ : ℝ) : EReal) ((Lr s (n' + 1) μ : ℝ) : EReal) = _
  rw [Ideal.div_coe hLne, ← EReal.coe_mul]

end OnlineSoftmax
-- ==== Proof.TileStep.lean ====
/-
  One step of the running-maximum recurrence, as the kernel's body computes it.

  With m, l, a the running maximum, normaliser and weighted sum a graph carries into a tile, s the tile's scores and v
  the tile's transformed rows, the body leaves  m' = max m (max s),  l' = exp (m - m') · l + ∑ exp (s - m')  and
  a' = exp (m - m') · a + ∑ exp (s - m') · v  — the weighted sum taken as a 1 × 512 by 512 × 128 matrix product —, starts
  from m = -∞, l = 0, a = 0, and divides a by l at the end.
-/
import proofs.«403798_j7215545057977_3_alg».proof.Proof.Gen.KernelIdeal.Skeleton
import proofs.«403798_j7215545057977_3_alg».proof.Proof.LibOnlineSoftmax
import Idealize.ShloMosaic.PureOps.Ideal.Laws
import Idealize.ShloMosaic.Lib.ValueIdx
import Idealize.ShloMosaic.Lib.Pipeline.Value

noncomputable section

namespace GatedPool.TileStep

open Cert.KernelIdeal Cert.KernelIdeal.Gen Idealize.ShloMosaic Idealize.ShloMosaic.ValueIdx
open scoped BigOperators

/-! ## Layout operations read at an index written by its coordinates -/

section Layout
variable {α : Type}

/-- A column of m entries broadcast along rows of width n: entry (b, c) is the column's entry b. -/
theorem colBroadcast_at {m n : Nat} (hm : m ≠ 1) (x : (⟨2, ![m, 1]⟩ : Shape).Idx → α)
    (h : (⟨2, ![m, 1]⟩ : Shape).Broadcasts ⟨2, ![m, n]⟩) (b : Fin m) (c : Fin n) :
    broadcastTo ⟨2, ![m, n]⟩ x h (ix2 b c) = x (ix2 b 0) := by
  refine broadcastTo_apply x h (ix2 b c) (ix2 b 0) fun ax => ?_
  match ax with
  | ⟨0, _⟩ =>
    show b.val = if m = 1 then 0 else b.val
    rw [if_neg hm]
  | ⟨1, _⟩ =>
    show (0 : Nat) = if (1 : Nat) = 1 then 0 else c.val
    rw [if_pos rfl]

/-- A vector of m entries cast to a column: entry (b, 0) is the vector's entry b. -/
theorem vecToCol_at {m : Nat} (x : (⟨1, ![m]⟩ : Shape).Idx → α)
    (h : (⟨1, ![m]⟩ : Shape).ShapeCasts ⟨2, ![m, 1]⟩) (b : Fin m) (z : Fin 1) :
    shapeCast ⟨2, ![m, 1]⟩ x h (ix2 b z) = x (ix1 b) :=
  shapeCast_apply x h _ _ (by
    rw [Shape.rowMajor_val_one, Shape.rowMajor_val_two]
    show b.val = b.val * 1 + z.val
    have := z.isLt
    omega)

/-- A matrix given a unit axis in the middle by a cast: entry (b, 0, c) is entry (b, c). -/
theorem castMidUnit_at {m n : Nat} (x : (⟨2, ![m, n]⟩ : Shape).Idx → α)
    (h : (⟨2, ![m, n]⟩ : Shape).ShapeCasts ⟨3, ![m, 1, n]⟩) (b : Fin m) (z : Fin 1) (c : Fin n) :
    shapeCast ⟨3, ![m, 1, n]⟩ x h (ix3 b z c) = x (ix2 b c) :=
  shapeCast_apply x h _ _ (by
    rw [Shape.rowMajor_val_two, Shape.rowMajor_val_three]
    show b.val * n + c.val = (b.val * 1 + z.val) * n + c.val
    have hz : z.val = 0 := by have := z.isLt; omega
    rw [hz, Nat.mul_one, Nat.add_zero])

/-- The unit middle axis cast away again: entry (b, c) is entry (b, 0, c). -/
theorem castDropMidUnit_at {m n : Nat} (x : (⟨3, ![m, 1, n]⟩ : Shape).Idx → α)
    (h : (⟨3, ![m, 1, n]⟩ : Shape).ShapeCasts ⟨2, ![m, n]⟩) (b : Fin m) (c : Fin n) :
    shapeCast ⟨2, ![m, n]⟩ x h (ix2 b c) = x (ix3 b (0 : Fin 1) c) :=
  shapeCast_apply x h _ _ (by
    rw [Shape.rowMajor_val_three, Shape.rowMajor_val_two]
    show (b.val * 1 + 0) * n + c.val = b.val * n + c.val
    rw [Nat.mul_one, Nat.add_zero])

end Layout

/-- The index over row b whose coordinate on the reduced second axis is k. -/
theorem rowLift_eq {m n : Nat} (h : (⟨2, ![m, n]⟩ : Shape).Reduces [(1 : Fin 2)] ⟨1, ![m]⟩) (b : Fin m)
    (k : Fin ((⟨2, ![m, n]⟩ : Shape).size 1)) : h.lift (ix1 b) k = ix2 b (⟨k.val, k.isLt⟩ : Fin n) := by
  funext c
  apply Fin.ext
  rw [h.lift_val]
  match c with
  | ⟨0, _⟩ => simp [Shape.Reduces.liftVal]
  | ⟨1, _⟩ => simp [Shape.Reduces.liftVal]

/-- The sum of a matrix along its rows, on the extended reals: entry b is the sum of row b. -/
theorem rowSum_at {m n : Nat} {φ : FTy} (x : FVec Ideal ⟨2, ![m, n]⟩ φ) (acc : BitVec φ.bits)
    (h : (⟨2, ![m, n]⟩ : Shape).Reduces [(1 : Fin 2)] ⟨1, ![m]⟩) (hφ : FKind.Formats φ)
    (hacc : acc = FKind.add.neutral φ hφ) (b : Fin m) :
    multiReduction .add [(1 : Fin 2)] ⟨1, ![m]⟩ x acc h hφ hacc (ix1 b) = ∑ k : Fin n, x (ix2 b k) :=
  (Ideal.multiReduction_add_single x acc h hφ hacc (ix1 b)).trans
    (Finset.sum_congr rfl fun k _ => congrArg x (rowLift_eq h b k))

/-! ## The batched row-by-matrix product read at an entry -/

section Dot
variable {B K N : Nat}
  (w : DotDims.WF ⟨3, ![B, 1, K]⟩ ⟨3, ![B, K, N]⟩ ⟨3, ![B, 1, N]⟩ [2] [1] [1] [2] [0] [0])

/-- The left operand keeps the batch coordinate. -/
theorem lhs_batch (j : (⟨3, ![B, 1, N]⟩ : Shape).Idx)
    (q : (⟨[2], [1], [1], [2], [0], [0], w⟩ : DotDims ⟨3, ![B, 1, K]⟩ ⟨3, ![B, K, N]⟩ ⟨3, ![B, 1, N]⟩).contr.Idx) :
    ((⟨[2], [1], [1], [2], [0], [0], w⟩ : DotDims ⟨3, ![B, 1, K]⟩ ⟨3, ![B, K, N]⟩ ⟨3, ![B, 1, N]⟩).lhsIdx j q 0).val
      = (j 0).val := by
  unfold DotDims.lhsIdx
  rw [dif_pos (show (0 : Fin 3) ∈ [(0 : Fin 3)] by decide)]
  rfl

/-- The left operand keeps the (unit) row coordinate. -/
theorem lhs_row (j : (⟨3, ![B, 1, N]⟩ : Shape).Idx)
    (q : (⟨[2], [1], [1], [2], [0], [0], w⟩ : DotDims ⟨3, ![B, 1, K]⟩ ⟨3, ![B, K, N]⟩ ⟨3, ![B, 1, N]⟩).contr.Idx) :
    ((⟨[2], [1], [1], [2], [0], [0], w⟩ : DotDims ⟨3, ![B, 1, K]⟩ ⟨3, ![B, K, N]⟩ ⟨3, ![B, 1, N]⟩).lhsIdx j q 1).val
      = (j 1).val := by
  unfold DotDims.lhsIdx
  rw [dif_neg (show ¬ (1 : Fin 3) ∈ [(0 : Fin 3)] by decide), dif_pos (show (1 : Fin 3) ∈ [(1 : Fin 3)] by decide)]
  rfl

/-- The left operand takes the contracted coordinate on its last axis. -/
theorem lhs_contr (j : (⟨3, ![B, 1, N]⟩ : Shape).Idx)
    (q : (⟨[2], [1], [1], [2], [0], [0], w⟩ : DotDims ⟨3, ![B, 1, K]⟩ ⟨3, ![B, K, N]⟩ ⟨3, ![B, 1, N]⟩).contr.Idx) :
    ((⟨[2], [1], [1], [2], [0], [0], w⟩ : DotDims ⟨3, ![B, 1, K]⟩ ⟨3, ![B, K, N]⟩ ⟨3, ![B, 1, N]⟩).lhsIdx j q 2).val
      = (q ⟨0, Nat.one_pos⟩).val :=
  DotDims.lhsIdx_val_of_single _ rfl j q

/-- The right operand keeps the batch coordinate. -/
theorem rhs_batch (j : (⟨3, ![B, 1, N]⟩ : Shape).Idx)
    (q : (⟨[2], [1], [1], [2], [0], [0], w⟩ : DotDims ⟨3, ![B, 1, K]⟩ ⟨3, ![B, K, N]⟩ ⟨3, ![B, 1, N]⟩).contr.Idx) :
    ((⟨[2], [1], [1], [2], [0], [0], w⟩ : DotDims ⟨3, ![B, 1, K]⟩ ⟨3, ![B, K, N]⟩ ⟨3, ![B, 1, N]⟩).rhsIdx j q 0).val
      = (j 0).val := by
  unfold DotDims.rhsIdx
  rw [dif_pos (show (0 : Fin 3) ∈ [(0 : Fin 3)] by decide)]
  rfl

/-- The right operand takes the contracted coordinate on its middle axis. -/
theorem rhs_contr (j : (⟨3, ![B, 1, N]⟩ : Shape).Idx)
    (q : (⟨[2], [1], [1], [2], [0], [0], w⟩ : DotDims ⟨3, ![B, 1, K]⟩ ⟨3, ![B, K, N]⟩ ⟨3, ![B, 1, N]⟩).contr.Idx) :
    ((⟨[2], [1], [1], [2], [0], [0], w⟩ : DotDims ⟨3, ![B, 1, K]⟩ ⟨3, ![B, K, N]⟩ ⟨3, ![B, 1, N]⟩).rhsIdx j q 1).val
      = (q ⟨0, Nat.one_pos⟩).val :=
  DotDims.rhsIdx_val_of_single _ rfl j q

/-- The right operand takes the output's column coordinate on its last axis. -/
theorem rhs_col (j : (⟨3, ![B, 1, N]⟩ : Shape).Idx)
    (q : (⟨[2], [1], [1], [2], [0], [0], w⟩ : DotDims ⟨3, ![B, 1, K]⟩ ⟨3, ![B, K, N]⟩ ⟨3, ![B, 1, N]⟩).contr.Idx) :
    ((⟨[2], [1], [1], [2], [0], [0], w⟩ : DotDims ⟨3, ![B, 1, K]⟩ ⟨3, ![B, K, N]⟩ ⟨3, ![B, 1, N]⟩).rhsIdx j q 2).val
      = (j 2).val := by
  unfold DotDims.rhsIdx
  rw [dif_neg (show ¬ (2 : Fin 3) ∈ [(0 : Fin 3)] by decide), dif_pos (show (2 : Fin 3) ∈ [(2 : Fin 3)] by decide)]
  rfl

/-- For each b, a row of length K times the K × N matrix of batch b, accumulated into the all-zero array:
    entry (b, 0, c) is the sum over k of A (b, 0, k) · M (b, k, c). -/
theorem batchedRowDot_at {φ₁ φ₂ : FTy} (prec : Option ContractPrecision)
    (A : FVec Ideal ⟨3, ![B, 1, K]⟩ φ₁) (M : FVec Ideal ⟨3, ![B, K, N]⟩ φ₂) (b : Fin B) (z : Fin 1) (c : Fin N) :
    matmul (F := Ideal) (⟨[2], [1], [1], [2], [0], [0], w⟩ : DotDims _ _ _) prec A M
        (constant ⟨3, ![B, 1, N]⟩ .f32 0x00000000#32) (ix3 b z c)
      = ∑ k : Fin K, A (ix3 b z k) * M (ix3 b k c) := by
  show FloatOps.matmul _ prec A M _ (ix3 b z c) = _
  -- the entry is the sum over the contraction index, which has one axis of extent K
  rw [Ideal.matmul_constant_zero_apply,
    ← Equiv.sum_comp (contrEquiv1 (⟨[2], [1], [1], [2], [0], [0], w⟩ : DotDims _ _ _) K rfl rfl).symm]
  refine Finset.sum_congr rfl fun k _ => ?_
  have hk := contrEquiv1_symm_val
    (⟨[2], [1], [1], [2], [0], [0], w⟩ : DotDims ⟨3, ![B, 1, K]⟩ ⟨3, ![B, K, N]⟩ ⟨3, ![B, 1, N]⟩) K rfl rfl k
  have el : (⟨[2], [1], [1], [2], [0], [0], w⟩ : DotDims ⟨3, ![B, 1, K]⟩ ⟨3, ![B, K, N]⟩ ⟨3, ![B, 1, N]⟩).lhsIdx (ix3 b z c)
      ((contrEquiv1 _ K rfl rfl).symm k) = ix3 b z k := by
    funext ax; apply Fin.ext
    match ax with
    | ⟨0, _⟩ => exact lhs_batch w _ _
    | ⟨1, _⟩ => exact lhs_row w _ _
    | ⟨2, _⟩ => exact (lhs_contr w _ _).trans hk
  have er : (⟨[2], [1], [1], [2], [0], [0], w⟩ : DotDims ⟨3, ![B, 1, K]⟩ ⟨3, ![B, K, N]⟩ ⟨3, ![B, 1, N]⟩).rhsIdx (ix3 b z c)
      ((contrEquiv1 _ K rfl rfl).symm k) = ix3 b k c := by
    funext ax; apply Fin.ext
    match ax with
    | ⟨0, _⟩ => exact rhs_batch w _ _
    | ⟨1, _⟩ => exact (rhs_contr w _ _).trans hk
    | ⟨2, _⟩ => exact rhs_col w _ _
  rw [el, er]

end Dot

/-! ## The body's values -/

variable (v38 : FVec Ideal S16x512 .f32) (v40 : FVec Ideal S16x1 .f32)
  (h40 : ∀ b : Fin 16, v40 (ix2 b 0) = (Finset.univ : Finset (Fin 512)).fold max ⊥ (fun n => v38 (ix2 b n)))

/-- The final quotient. -/
theorem out_at (v75 : Vec Ideal S16x128 .f32) (v76 : Vec Ideal S16x1 .f32) (b : Fin 16) (k : Fin 128) :
    k0_pay7 (F := Ideal) v75 v76 (ix2 b k) = Ideal.div (v75 (ix2 b k)) (v76 (ix2 b 0)) := by
  show Ideal.div (v75 (ix2 b k)) (broadcastTo S16x128 v76 Facts₀.broadcasts_S16x1_S16x128 (ix2 b k)) = _
  rw [colBroadcast_at (by decide)]

/-- The starting values: -∞, 0, 0. -/
theorem m_init (b : Fin 16) : k0_pay8 (F := Ideal) (ix2 b 0) = ⊥ := by
  unfold k0_pay8
  rw [shapeCast_self]
  show Ideal.ofBits .f32 0xFF800000#32 = ⊥
  simp [Ideal.ofBits, Ideal.ieee]
theorem l_init (b : Fin 16) : k0_pay9 (F := Ideal) (ix2 b 0) = 0 := by
  unfold k0_pay9
  rw [shapeCast_self]
  exact Ideal.ofBits_zero_f32
theorem a_init (b : Fin 16) (k : Fin 128) : k0_pay10 (F := Ideal) (ix2 b k) = 0 := by
  unfold k0_pay10
  rw [shapeCast_self]
  exact Ideal.ofBits_zero_f32

include h40

/-- The maximum of the old running maximum and the tile's maximum. -/
theorem newMax_at (v41 : Vec Ideal S16x1 .f32) (b : Fin 16) :
    k0_pay1 (F := Ideal) v40 v41 (ix2 b 0) = OnlineSoftmax.stepM (v41 (ix2 b 0)) (fun n : Fin 512 => v38 (ix2 b n)) := by
  show max (v41 (ix2 b 0)) (v40 (ix2 b 0)) = _
  rw [h40 b]
  rfl

/-- The factor that rescales the old totals: exp (old maximum − new maximum). -/
theorem rescale_at (v41 v43 : Vec Ideal S16x1 .f32) (b : Fin 16) :
    k0_pay2 (F := Ideal) v40 v41 v43 (ix2 b 0)
      = Ideal.exp (v43 (ix2 b 0) - OnlineSoftmax.stepM (v41 (ix2 b 0)) (fun n : Fin 512 => v38 (ix2 b n))) := by
  show Ideal.exp (v43 (ix2 b 0) - k0_pay1 (F := Ideal) v40 v41 (ix2 b 0)) = _
  rw [newMax_at v38 v40 h40]

/-- The weight of score n of the tile: exp (score − new maximum). -/
theorem weight_at (v41 : Vec Ideal S16x1 .f32) (b : Fin 16) (n : Fin 512) :
    k0_pay3 (F := Ideal) v38 v40 v41 (ix2 b n)
      = Ideal.exp (v38 (ix2 b n) - OnlineSoftmax.stepM (v41 (ix2 b 0)) (fun n : Fin 512 => v38 (ix2 b n))) := by
  show Ideal.exp (v38 (ix2 b n)
    - broadcastTo S16x512 (k0_pay1 (F := Ideal) v40 v41) Facts₀.broadcasts_S16x1_S16x512 (ix2 b n)) = _
  rw [colBroadcast_at (by decide), newMax_at v38 v40 h40]

/-- The new running maximum. -/
theorem m_step (v41 : Vec Ideal S16x1 .f32) (b : Fin 16) :
    k0_pay6 (F := Ideal) v40 v41 (ix2 b 0) = OnlineSoftmax.stepM (v41 (ix2 b 0)) (fun n : Fin 512 => v38 (ix2 b n)) := by
  unfold k0_pay6
  rw [shapeCast_self]
  exact newMax_at v38 v40 h40 v41 b

/-- The new normaliser (both reads of the old maximum see the same contents). -/
theorem l_step (v41 v49 : Vec Ideal S16x1 .f32) (b : Fin 16) :
    k0_pay4 (F := Ideal) v38 v40 v41 v41 v49 (ix2 b 0)
      = OnlineSoftmax.stepL (v41 (ix2 b 0)) (v49 (ix2 b 0)) (fun n : Fin 512 => v38 (ix2 b n)) := by
  unfold k0_pay4
  rw [shapeCast_self]
  show k0_pay2 (F := Ideal) v40 v41 v41 (ix2 b 0) * v49 (ix2 b 0)
      + shapeCast S16x1 (multiReduction .add [1] S16 (k0_pay3 (F := Ideal) v38 v40 v41) 0x00000000#32
          Facts₀.reduces_S16x512_S16 (.inl rfl) rfl) Facts₀.shapeCasts_S16_S16x1 (ix2 b 0) = _
  have hsum : multiReduction .add [1] S16 (k0_pay3 (F := Ideal) v38 v40 v41) 0x00000000#32
      Facts₀.reduces_S16x512_S16 (.inl rfl) rfl (ix1 b) = ∑ n : Fin 512, k0_pay3 (F := Ideal) v38 v40 v41 (ix2 b n) :=
    rowSum_at _ _ _ _ _ b
  rw [vecToCol_at, hsum, rescale_at v38 v40 h40]
  unfold OnlineSoftmax.stepL
  exact congrArg _ (Finset.sum_congr rfl fun n _ => weight_at v38 v40 h40 v41 b n)

/-- The new weighted sum, coordinate k. -/
theorem a_step (v32 : FVec Ideal S16x512x128 .f32) (v41 : Vec Ideal S16x1 .f32) (v62 : Vec Ideal S16x128 .f32)
    (b : Fin 16) (k : Fin 128) :
    k0_pay5 (F := Ideal) v32 v38 v40 v41 v41 v62 (ix2 b k)
      = OnlineSoftmax.stepA (v41 (ix2 b 0)) (v62 (ix2 b k)) (fun n : Fin 512 => v38 (ix2 b n))
          (fun n : Fin 512 => v32 (ix3 b n k)) := by
  unfold k0_pay5
  rw [shapeCast_self]
  show broadcastTo S16x128 (k0_pay2 (F := Ideal) v40 v41 v41) Facts₀.broadcasts_S16x1_S16x128 (ix2 b k) * v62 (ix2 b k)
      + shapeCast S16x128
          (matmul dot_S16x1x512_S16x512x128_S16x1x128_2_1_1_2_0_0 none
            (shapeCast S16x1x512 (truncf .bf16 (k0_pay3 (F := Ideal) v38 v40 v41) Facts₀.bitsLt_bf16_f32)
              Facts₀.shapeCasts_S16x512_S16x1x512)
            (truncf .bf16 v32 Facts₀.bitsLt_bf16_f32) (constant S16x1x128 .f32 0x00000000#32))
          Facts₀.shapeCasts_S16x1x128_S16x128 (ix2 b k) = _
  rw [colBroadcast_at (by decide), rescale_at v38 v40 h40, castDropMidUnit_at]
  refine (congrArg _ (batchedRowDot_at Facts₀.dot_S16x1x512_S16x512x128_S16x1x128_2_1_1_2_0_0_wf none _ _ b 0 k)).trans ?_
  unfold OnlineSoftmax.stepA
  refine congrArg _ (Finset.sum_congr rfl fun n _ => ?_)
  rw [castMidUnit_at, truncf_apply, truncf_apply, weight_at v38 v40 h40]

end GatedPool.TileStep

end
-- ==== Proof.Spec.lean ====
/-
  Gated pooling of node features, graph by graph.

  Every node n of graph b carries a feature row x[b, n, ·] of length 128.  Two small networks read it:
  the GATE network gives the node a scalar score,
      score b n = ∑ₖ silu (∑_d x[b,n,d] · Wg1[d,k] + bg1[k]) · Wg2[k,0] + bg2[0],
  and the FEATURE network a transformed row,
      feat b n k = ∑ⱼ silu (∑_d x[b,n,d] · Wn1[d,j] + bn1[j]) · Wn2[j,k] + bn2[k],
  with silu z = z · 1 / (1 + e^(-z)).  The graph's summary is the softmax-weighted sum of the transformed rows
  over the graph's nodes, the weights being the softmax of the scores over the nodes of that graph:
      pooled b k = ∑ₙ (exp (score b n - M) / ∑ₙ' exp (score b n' - M)) · feat b n k,   M = maxₙ score b n.
  All of it is read on the extended reals.
-/
import Idealize.ShloMosaic.PureOps.Ideal
import Idealize.ShloMosaic.Lib.ValueIdx

noncomputable section

namespace GatedPool

open Idealize.ShloMosaic Idealize.ShloMosaic.ValueIdx
open scoped BigOperators

/-- silu z = z · σ(z), σ the logistic function 1 / (1 + e^(-z)). -/
def silu (z : EReal) : EReal := z * Ideal.logistic z

/-- One linear layer followed by silu, then a second linear layer, at one output coordinate:
    ∑ⱼ silu (∑_d row d · W d j + bias j) · w j.  The row, the first layer's weights and bias, and the one column
    `w` of the second layer's weights are plain functions of their coordinates. -/
def twoLayer (row : Fin 128 → EReal) (W : Fin 128 → Fin 128 → EReal) (bias : Fin 128 → EReal) (w : Fin 128 → EReal) : EReal :=
  ∑ j : Fin 128, silu ((∑ d : Fin 128, row d * W d j) + bias j) * w j

section
variable (X : (⟨3, ![32, 8192, 128]⟩ : Shape).Idx → EReal)
  (Wg1 : (⟨2, ![128, 128]⟩ : Shape).Idx → EReal) (bg1 : (⟨1, ![128]⟩ : Shape).Idx → EReal)
  (Wg2 : (⟨2, ![128, 1]⟩ : Shape).Idx → EReal) (bg2 : (⟨1, ![1]⟩ : Shape).Idx → EReal)
  (Wn1 : (⟨2, ![128, 128]⟩ : Shape).Idx → EReal) (bn1 : (⟨1, ![128]⟩ : Shape).Idx → EReal)
  (Wn2 : (⟨2, ![128, 128]⟩ : Shape).Idx → EReal) (bn2 : (⟨1, ![128]⟩ : Shape).Idx → EReal)

/-- The gate network's score of node n of graph b. -/
def score (b : Fin 32) (n : Fin 8192) : EReal :=
  twoLayer (fun d => X (ix3 b n d)) (fun d k => Wg1 (ix2 d k)) (fun k => bg1 (ix1 k)) (fun k => Wg2 (ix2 k 0)) + bg2 (ix1 0)

/-- Coordinate k of the feature network's row for node n of graph b. -/
def feat (b : Fin 32) (n : Fin 8192) (k : Fin 128) : EReal :=
  twoLayer (fun d => X (ix3 b n d)) (fun d j => Wn1 (ix2 d j)) (fun j => bn1 (ix1 j)) (fun j => Wn2 (ix2 j k)) + bn2 (ix1 k)

/-- Coordinate k of graph b's summary: the transformed rows weighted by the softmax of the scores over the graph's nodes. -/
def pooled (b : Fin 32) (k : Fin 128) : EReal :=
  ∑ n : Fin 8192,
    Ideal.div (Ideal.exp (score X Wg1 bg1 Wg2 bg2 b n - (Finset.univ : Finset (Fin 8192)).fold max ⊥ (score X Wg1 bg1 Wg2 bg2 b)))
      (∑ n' : Fin 8192, Ideal.exp (score X Wg1 bg1 Wg2 bg2 b n' - (Finset.univ : Finset (Fin 8192)).fold max ⊥ (score X Wg1 bg1 Wg2 bg2 b)))
      * feat X Wn1 bn1 Wn2 bn2 b n k

/-- The whole result array. -/
def result : (⟨2, ![32, 128]⟩ : Shape).Idx → EReal :=
  fun i => pooled X Wg1 bg1 Wg2 bg2 Wn1 bn1 Wn2 bn2 (i 0) (i 1)

theorem result_apply (b : Fin 32) (k : Fin 128) :
    result X Wg1 bg1 Wg2 bg2 Wn1 bn1 Wn2 bn2 (ix2 b k) = pooled X Wg1 bg1 Wg2 bg2 Wn1 bn1 Wn2 bn2 b k := rfl

end

/-! ## The fused weights, and the tiling of graphs and nodes

The kernel multiplies by two FUSED weight matrices.  The first layer's is the gate network's and the feature
network's first-layer weights side by side (columns 0–127 and 128–255), with the biases joined likewise.  The second
layer's is block diagonal on a 256 × 256 grid: the feature network's second-layer weights in the top-left block,
the gate network's single output column in column 128 of the bottom rows, and zero everywhere else. -/

/-- Column k of the left half. -/
def lo (k : Fin 128) : Fin 256 := ⟨k.val, by omega⟩
/-- Column k of the right half. -/
def hi (k : Fin 128) : Fin 256 := ⟨128 + k.val, by omega⟩

/-- `W1`, `b1`, `W2` are the fused first-layer weights, first-layer biases and block-diagonal second-layer weights
    of the two networks. -/
structure Fused (W1 : (⟨2, ![128, 256]⟩ : Shape).Idx → EReal) (b1 : (⟨1, ![256]⟩ : Shape).Idx → EReal)
    (W2 : (⟨2, ![256, 256]⟩ : Shape).Idx → EReal)
    (Wg1 : (⟨2, ![128, 128]⟩ : Shape).Idx → EReal) (bg1 : (⟨1, ![128]⟩ : Shape).Idx → EReal)
    (Wg2 : (⟨2, ![128, 1]⟩ : Shape).Idx → EReal)
    (Wn1 : (⟨2, ![128, 128]⟩ : Shape).Idx → EReal) (bn1 : (⟨1, ![128]⟩ : Shape).Idx → EReal)
    (Wn2 : (⟨2, ![128, 128]⟩ : Shape).Idx → EReal) : Prop where
  w1_lo : ∀ (d k : Fin 128), W1 (ix2 d (lo k)) = Wg1 (ix2 d k)
  w1_hi : ∀ (d k : Fin 128), W1 (ix2 d (hi k)) = Wn1 (ix2 d k)
  b1_lo : ∀ k : Fin 128, b1 (ix1 (lo k)) = bg1 (ix1 k)
  b1_hi : ∀ k : Fin 128, b1 (ix1 (hi k)) = bn1 (ix1 k)
  w2_lo_lo : ∀ (j k : Fin 128), W2 (ix2 (lo j) (lo k)) = Wn2 (ix2 j k)
  w2_lo_hi : ∀ (j k : Fin 128), W2 (ix2 (lo j) (hi k)) = 0
  w2_hi_lo : ∀ (j k : Fin 128), W2 (ix2 (hi j) (lo k)) = 0
  w2_hi_hi : ∀ (j k : Fin 128), W2 (ix2 (hi j) (hi k)) = if k.val = 0 then Wg2 (ix2 j 0) else 0

/-- Every entry is a real number (neither infinity). -/
def AllReal {s : Shape} (v : s.Idx → EReal) : Prop := ∀ i, ∃ r : ℝ, v i = (r : EReal)

/-- Graph b of half bi of the batch: the batch is cut into two halves of 16 graphs. -/
def row (bi : Fin 2) (b : Fin 16) : Fin 32 := ⟨16 * bi.val + b.val, by omega⟩
/-- Node n of tile ni: a graph's 8192 nodes are visited in 16 tiles of 512. -/
def node (ni : Fin 16) (n : Fin 512) : Fin 8192 := ⟨512 * ni.val + n.val, by omega⟩

end GatedPool

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.LibLayoutAt.lean ====
/- Four layout operations read at an index written by its coordinates — general facts, about no particular program:
   the transpose of a matrix, a band of consecutive rows cut out of a matrix, two matrices of equal height joined side
   by side, and a matrix given a new unit axis in the middle. -/
import Idealize.ShloMosaic.Lib.ValueIdx
import Idealize.ShloMosaic.Lib.Pipeline.Value

namespace Cert.Lib.LayoutAt

open Idealize.ShloMosaic Idealize.ShloMosaic.ValueIdx

variable {α : Type}

/-- Entry (c, n) of the transpose is entry (n, c) of the matrix. -/
theorem transpose_at {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- Rows k … k + R − 1 of a matrix of R' rows, cut out as a matrix of R rows: entry (r, c) is entry (k + r, c). -/
theorem rowBand_at {R' R C k : Nat} (x : (⟨2, ![R', C]⟩ : Shape).Idx → α)
    (h : (⟨2, ![R', C]⟩ : Shape).Slices ![k, 0] ⟨2, ![R, C]⟩) (r : Fin R) (c : Fin C) (hr : k + r.val < R') :
    extractStridedSlice ⟨2, ![R, C]⟩ ![k, 0] x h (ix2 r c) = x (ix2 ⟨k + r.val, hr⟩ c) :=
  extractStridedSlice_apply _ x h _ _ (fun a => match a with
    | ⟨0, _⟩ => rfl
    | ⟨1, _⟩ => by show c.val = 0 + c.val; omega)

/-- Two matrices of N rows joined side by side, read in the LEFT part: the first matrix there. -/
theorem sideBySide_left {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : c.val < A) :
    concatenate ⟨2, ![N, W]⟩ 1 [⟨⟨2, ![N, A]⟩, x⟩, ⟨⟨2, ![N, B]⟩, y⟩] h (ix2 n c) = x (ix2 n ⟨c.val, hc⟩) :=
  concatenate_pair_apply_left 1 x y h (ix2 n c) rfl (ix2 n ⟨c.val, hc⟩) (fun b => match b with
    | ⟨0, _⟩ => rfl
    | ⟨1, _⟩ => rfl)

/-- Two matrices of N rows joined side by side, read in the RIGHT part: the second matrix, the first one's width less. -/
theorem sideBySide_right {N A B W : Nat} (x : (⟨2, ![N, A]⟩ : Shape).Idx → α) (y : (⟨2, ![N, B]⟩ : Shape).Idx → α)
    (h : Shape.Concatenates [⟨2, ![N, A]⟩, ⟨2, ![N, B]⟩] ⟨2, ![N, W]⟩ 1) (n : Fin N) (c : Fin W) (hc : A ≤ c.val)
    (hB : c.val - A < B) :
    concatenate ⟨2, ![N, W]⟩ 1 [⟨⟨2, ![N, A]⟩, x⟩, ⟨⟨2, ![N, B]⟩, y⟩] h (ix2 n c) = y (ix2 n ⟨c.val - A, hB⟩) :=
  concatenate_pair_apply_right 1 x y h (ix2 n c) rfl rfl (ix2 n ⟨c.val - A, hB⟩)
    (fun b hb => match b, hb with
      | ⟨0, _⟩, _ => rfl
      | ⟨1, _⟩, hb => absurd rfl hb)
    (by show c.val - A + A = c.val; omega)

/-- A matrix given a new unit axis in the middle: entry (n, z, c) is entry (n, c). -/
theorem midUnit_at {N C : Nat} (hN : N ≠ 1) (hC : C ≠ 1) (x : (⟨2, ![N, C]⟩ : Shape).Idx → α)
    (h : (⟨2, ![N, C]⟩ : Shape).BroadcastsInDim ⟨3, ![N, 1, C]⟩ (![0, 2] : Fin 2 → Fin 3)) (n : Fin N) (z : Fin 1) (c : Fin C) :
    broadcastInDim ⟨3, ![N, 1, C]⟩ (![0, 2] : Fin 2 → Fin 3) h x (ix3 n z c) = x (ix2 n c) :=
  broadcastInDim_apply _ h x _ (ix2 n c) (fun a => match a with
    | ⟨0, _⟩ => by show n.val = if N = 1 then 0 else n.val; rw [if_neg hN]
    | ⟨1, _⟩ => by show c.val = if C = 1 then 0 else c.val; rw [if_neg hC])

end Cert.Lib.LayoutAt
-- ==== Proof.TilePay.lean ====
/-
  One tile of nodes through the two networks.

  The kernel's body takes a block of 16 graphs × 512 nodes, flattens it to 8192 rows, multiplies by the fused
  first-layer weights, applies silu to both halves, multiplies by the block-diagonal second-layer weights and reads
  the feature rows off the left half and the gate score off the right half (whose only non-zero column is column 128,
  so that summing the half recovers the score).  Here: at every node of the tile these are the feature network's row
  and the gate network's score, and the tile's running-maximum candidate is the maximum of the tile's scores.
-/
import proofs.«403798_j7215545057977_3_alg».proof.Proof.Gen.KernelIdeal.Skeleton
import proofs.«403798_j7215545057977_3_alg».proof.Proof.Spec
import proofs.«403798_j7215545057977_3_alg».proof.Proof.LibDots
import proofs.«403798_j7215545057977_3_alg».proof.Proof.LibLayoutAt
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace GatedPool.TilePay

open Cert.KernelIdeal Cert.KernelIdeal.Gen Idealize.ShloMosaic Idealize.ShloMosaic.ValueIdx
open scoped BigOperators

/-! ## Bookkeeping: rows of the flattened block, halves of the 256 columns -/

/-- Row 512·b + n of the flattened block: node n of graph b. -/
def flat (b : Fin 16) (n : Fin 512) : Fin 8192 := ⟨512 * b.val + n.val, by omega⟩

/-- A sum over the 256 columns is the sum over the left half plus the sum over the right half. -/
theorem sum_halves {M : Type*} [AddCommMonoid M] (f : Fin 256 → M) :
    ∑ k : Fin 256, f k = ∑ j : Fin 128, f (lo j) + ∑ j : Fin 128, f (hi j) :=
  Fin.sum_univ_add (a := 128) (b := 128) f

/-- The left 128 columns cut out of a 256-column matrix: entry (r, j) is entry (r, j). -/
theorem leftCols_at {α : Type} (x : S8192x256.Idx → α) (h : S8192x256.Slices ![0, 0] S8192x128) (r : Fin 8192) (j : Fin 128) :
    extractStridedSlice S8192x128 ![0, 0] x h (ix2 r j) = x (ix2 r (lo j)) :=
  extractStridedSlice_apply _ x h _ _ (fun a => match a with
    | ⟨0, _⟩ => by show r.val = 0 + r.val; omega
    | ⟨1, _⟩ => by show j.val = 0 + j.val; omega)

/-- The right 128 columns cut out of a 256-column matrix: entry (r, j) is entry (r, 128 + j). -/
theorem rightCols_at {α : Type} (x : S8192x256.Idx → α) (h : S8192x256.Slices ![0, 128] S8192x128) (r : Fin 8192) (j : Fin 128) :
    extractStridedSlice S8192x128 ![0, 128] x h (ix2 r j) = x (ix2 r (hi j)) :=
  extractStridedSlice_apply _ x h _ _ (fun a => match a with
    | ⟨0, _⟩ => by show r.val = 0 + r.val; omega
    | ⟨1, _⟩ => rfl)

/-- The 8192 × 128 matrix unflattened to 16 × 512 × 128: entry (b, n, k) is entry (512·b + n, k). -/
theorem unflatten_at {α : Type} (x : S8192x128.Idx → α) (h : S8192x128.ShapeCasts S16x512x128) (b : Fin 16) (n : Fin 512) (k : Fin 128) :
    shapeCast S16x512x128 x h (ix3 b n k) = x (ix2 (flat b n) k) :=
  shapeCast_apply x h _ _ (by
    rw [Shape.rowMajor_val_three, Shape.rowMajor_val_two]
    show (512 * b.val + n.val) * 128 + k.val = (b.val * 512 + n.val) * 128 + k.val
    omega)

/-- The 16 × 512 × 128 block flattened to 8192 × 128: entry (512·b + n, d) is entry (b, n, d). -/
theorem flatten_at {α : Type} (x : S16x512x128.Idx → α) (h : S16x512x128.ShapeCasts S8192x128) (b : Fin 16) (n : Fin 512) (d : Fin 128) :
    shapeCast S8192x128 x h (ix2 (flat b n) d) = x (ix3 b n d) :=
  shapeCast_apply x h _ _ (by
    rw [Shape.rowMajor_val_three, Shape.rowMajor_val_two]
    show (b.val * 512 + n.val) * 128 + d.val = (512 * b.val + n.val) * 128 + d.val
    omega)

/-- A row of 128 numbers repeated down 8192 rows. -/
theorem rows128_at {α : Type} (x : S1x128.Idx → α) (h : S1x128.Broadcasts S8192x128) (r : Fin 8192) (k : Fin 128) :
    broadcastTo S8192x128 x h (ix2 r k) = x (ix2 (0 : Fin 1) k) :=
  broadcastTo_apply x h _ _ (fun a => match a with
    | ⟨0, _⟩ => rfl
    | ⟨1, _⟩ => rfl)

/-- A row of 256 numbers repeated down 8192 rows. -/
theorem rows256_at {α : Type} (x : S1x256.Idx → α) (h : S1x256.Broadcasts S8192x256) (r : Fin 8192) (c : Fin 256) :
    broadcastTo S8192x256 x h (ix2 r c) = x (ix2 (0 : Fin 1) c) :=
  broadcastTo_apply x h _ _ (fun a => match a with
    | ⟨0, _⟩ => rfl
    | ⟨1, _⟩ => rfl)

/-- One number repeated over a 16 × 512 array. -/
theorem all_at {α : Type} (x : S1x1.Idx → α) (h : S1x1.Broadcasts S16x512) (b : Fin 16) (n : Fin 512) :
    broadcastTo S16x512 x h (ix2 b n) = x (ix2 (0 : Fin 1) (0 : Fin 1)) :=
  broadcastTo_apply x h _ _ (fun a => match a with
    | ⟨0, _⟩ => rfl
    | ⟨1, _⟩ => rfl)

variable (v3 : Vec Ideal S16x512x128 .f32) (v6 : Vec Ideal S128x256 .bf16) (v8 : Vec Ideal S256 .f32)
  (v23 : Vec Ideal S256x256 .bf16)
  (Wg1 : (⟨2, ![128, 128]⟩ : Shape).Idx → EReal) (bg1 : (⟨1, ![128]⟩ : Shape).Idx → EReal)
  (Wg2 : (⟨2, ![128, 1]⟩ : Shape).Idx → EReal)
  (Wn1 : (⟨2, ![128, 128]⟩ : Shape).Idx → EReal) (bn1 : (⟨1, ![128]⟩ : Shape).Idx → EReal)
  (Wn2 : (⟨2, ![128, 128]⟩ : Shape).Idx → EReal)
  (hF : Fused v6 v8 v23 Wg1 bg1 Wg2 Wn1 bn1 Wn2)

/-! ## The two layers, entry by entry -/

/-- The first layer before the activation, over all 8192 rows and 256 columns: the flattened block times the fused
    weights, plus the fused biases on every row. -/
def pre : FVec Ideal S8192x256 .f32 :=
  addf (matmul dot_S8192x128_S128x256_S8192x256_1_0_0_1_n_n none
      (truncf .bf16 (shapeCast S8192x128 v3 Facts₀.shapeCasts_S16x512x128_S8192x128 : FVec Ideal S8192x128 .f32) Facts₀.bitsLt_bf16_f32)
      (shapeCast S128x256 v6 Facts₀.shapeCasts_S128x256_S128x256 : FVec Ideal S128x256 .bf16) (constant S8192x256 .f32 0x00000000#32))
    (broadcastTo S8192x256 (shapeCast S1x256 (shapeCast S256 v8 Facts₀.shapeCasts_S256_S256 : FVec Ideal S256 .f32) Facts₀.shapeCasts_S256_S1x256)
      Facts₀.broadcasts_S1x256_S8192x256)

/-- At the row of node n of graph b and column c: y1 = ∑_d x[b, n, d] · W1[d, c] + b1[c]. -/
theorem pre_at (b : Fin 16) (n : Fin 512) (c : Fin 256) :
    pre v3 v6 v8 (ix2 (flat b n) c) = (∑ d : Fin 128, v3 (ix3 b n d) * v6 (ix2 d c)) + v8 (ix1 c) := by
  unfold pre
  rw [addf_apply]
  refine congrArg₂ (· + ·) ?_ ?_
  · refine (Cert.Lib.Dots.matmul_zero_rowsCols_apply _ none _ _ (flat b n) c).trans ?_
    refine Finset.sum_congr rfl fun d _ => ?_
    rw [truncf_apply, flatten_at, shapeCast_apply v6 _ (ix2 d c) (ix2 d c) rfl]
  · rw [rows256_at, shapeCast_a_1a_apply, shapeCast_apply v8 _ (ix1 c) (ix1 c) rfl]

/-- The activated first layer: silu of the right half of the columns, then silu of the left half. -/
def act (y : FVec Ideal S8192x256 .f32) : FVec Ideal S8192x256 .bf16 :=
  concatenate S8192x256 1
    [⟨S8192x128, truncf .bf16 (mulf (extractStridedSlice S8192x128 ![0, 128] y Facts₀.slices_S8192x256_o0_128_S8192x128)
        (logistic (extractStridedSlice S8192x128 ![0, 128] y Facts₀.slices_S8192x256_o0_128_S8192x128))) Facts₀.bitsLt_bf16_f32⟩,
     ⟨S8192x128, truncf .bf16 (mulf (extractStridedSlice S8192x128 ![0, 0] y Facts₀.slices_S8192x256_o0_0_S8192x128)
        (logistic (extractStridedSlice S8192x128 ![0, 0] y Facts₀.slices_S8192x256_o0_0_S8192x128))) Facts₀.bitsLt_bf16_f32⟩]
    Facts₀.concatenates_S8192x128_S8192x128_S8192x256_d1

/-- Its left half holds silu of the right half of y1. -/
theorem act_lo (y : FVec Ideal S8192x256 .f32) (r : Fin 8192) (j : Fin 128) :
    act y (ix2 r (lo j)) = silu (y (ix2 r (hi j))) := by
  unfold act
  refine (Cert.Lib.LayoutAt.sideBySide_left _ _ _ r (lo j) j.isLt).trans ?_
  show extractStridedSlice S8192x128 ![0, 128] y Facts₀.slices_S8192x256_o0_128_S8192x128 (ix2 r j)
      * Ideal.logistic (extractStridedSlice S8192x128 ![0, 128] y Facts₀.slices_S8192x256_o0_128_S8192x128 (ix2 r j)) = _
  rw [rightCols_at]
  rfl

/-- Its right half holds silu of the left half of y1. -/
theorem act_hi (y : FVec Ideal S8192x256 .f32) (r : Fin 8192) (j : Fin 128) :
    act y (ix2 r (hi j)) = silu (y (ix2 r (lo j))) := by
  unfold act
  have hB : (hi j).val - 128 < 128 := by show 128 + j.val - 128 < 128; omega
  have e : (⟨(hi j).val - 128, hB⟩ : Fin 128) = j := Fin.ext (by show 128 + j.val - 128 = j.val; omega)
  refine (Cert.Lib.LayoutAt.sideBySide_right _ _ _ r (hi j) (by show 128 ≤ 128 + j.val; omega) hB).trans ?_
  rw [e]
  show extractStridedSlice S8192x128 ![0, 0] y Facts₀.slices_S8192x256_o0_0_S8192x128 (ix2 r j)
      * Ideal.logistic (extractStridedSlice S8192x128 ![0, 0] y Facts₀.slices_S8192x256_o0_0_S8192x128 (ix2 r j)) = _
  rw [leftCols_at]
  rfl

/-- The second layer at row r and column c: y2 = ∑_k L[r, k] · W2[k, c], L the activated first layer. -/
theorem pay11_at (r : Fin 8192) (c : Fin 256) :
    k0_pay11 (F := Ideal) v3 v6 v8 v23 (ix2 r c) = ∑ k : Fin 256, act (pre v3 v6 v8) (ix2 r k) * v23 (ix2 k c) := by
  show matmul dot_S8192x256_S256x256_S8192x256_1_0_0_1_n_n none (act (pre v3 v6 v8))
      (shapeCast S256x256 v23 Facts₀.shapeCasts_S256x256_S256x256 : FVec Ideal S256x256 .bf16) (constant S8192x256 .f32 0x00000000#32) (ix2 r c) = _
  refine (Cert.Lib.Dots.matmul_zero_rowsCols_apply _ none _ _ r c).trans ?_
  refine Finset.sum_congr rfl fun k _ => ?_
  rw [shapeCast_apply v23 _ (ix2 k c) (ix2 k c) rfl]

/-! ## Reading the reductions' inserted coordinates -/

/-- Node (b, n) with lane k inserted on the last axis is the index (b, n, k). -/
theorem lift_lane (h : S16x512x128.Reduces [2] S16x512) (b : Fin 16) (n : Fin 512) (k : Fin 128) :
    h.lift (ix2 b n) k = ix3 b n k :=
  funext fun a => Fin.ext (match a with
    | ⟨0, _⟩ => rfl
    | ⟨1, _⟩ => rfl
    | ⟨2, _⟩ => rfl)

/-- Graph b with node n inserted on the last axis is the index (b, n). -/
theorem lift_node (h : S16x512.Reduces [1] S16) (b : Fin 16) (n : Fin 512) :
    h.lift (ix1 b) n = ix2 b n :=
  funext fun a => Fin.ext (match a with
    | ⟨0, _⟩ => rfl
    | ⟨1, _⟩ => rfl)

/-- The tile's maximum score, graph by graph (needs nothing of the weights). -/
theorem max_tile (v35 : Vec Ideal S1 .f32) (b : Fin 16) :
    k0_pay14 (F := Ideal) v3 v6 v8 v23 v35 (ix2 b 0)
      = (Finset.univ : Finset (Fin 512)).fold max ⊥ (fun n => k0_pay13 (F := Ideal) v3 v6 v8 v23 v35 (ix2 b n)) := by
  show shapeCast S16x1 (multiReduction .maximumf [1] S16 (k0_pay13 (F := Ideal) v3 v6 v8 v23 v35) 0xFF800000#32
      Facts₀.reduces_S16x512_S16 (.inl rfl) rfl) Facts₀.shapeCasts_S16_S16x1 (ix2 b 0) = _
  -- the new unit axis reads the reduced vector at b
  rw [shapeCast_apply _ Facts₀.shapeCasts_S16_S16x1 (ix2 b 0) (ix1 b) (by
    rw [Shape.rowMajor_val_two, Shape.rowMajor_val_one]
    show b.val = b.val * 1 + 0
    omega)]
  -- the reduction is the fold of max over the 512 nodes, from the accumulator's value, which is −∞
  refine (Ideal.multiReduction_maximumf_single (k0_pay13 (F := Ideal) v3 v6 v8 v23 v35) _ Facts₀.reduces_S16x512_S16
    _ _ (ix1 b)).trans ?_
  have hbot : FloatOps.ofBits (F := Ideal) .f32 0xFF800000#32 = (⊥ : EReal) := by
    show Ideal.ofBits .f32 0xFF800000#32 = ⊥
    simp [Ideal.ofBits, Ideal.ieee]
  rw [hbot]
  show (Finset.univ : Finset (Fin 512)).fold max ⊥
      (k0_pay13 (F := Ideal) v3 v6 v8 v23 v35 ∘ Facts₀.reduces_S16x512_S16.lift (ix1 b)) = _
  refine congrArg (fun f => Finset.fold max ⊥ f (Finset.univ : Finset (Fin 512))) (funext fun n => ?_)
  exact congrArg (k0_pay13 (F := Ideal) v3 v6 v8 v23 v35) (lift_node Facts₀.reduces_S16x512_S16 b n)

include hF

/-- The right half of y1 is the feature network's first layer. -/
theorem pre_hi (b : Fin 16) (n : Fin 512) (j : Fin 128) :
    pre v3 v6 v8 (ix2 (flat b n) (hi j)) = (∑ d : Fin 128, v3 (ix3 b n d) * Wn1 (ix2 d j)) + bn1 (ix1 j) := by
  rw [pre_at, hF.b1_hi]
  refine congrArg (· + bn1 (ix1 j)) ?_
  exact Finset.sum_congr rfl fun d _ => by rw [hF.w1_hi]

/-- The left half of y1 is the gate network's first layer. -/
theorem pre_lo (b : Fin 16) (n : Fin 512) (j : Fin 128) :
    pre v3 v6 v8 (ix2 (flat b n) (lo j)) = (∑ d : Fin 128, v3 (ix3 b n d) * Wg1 (ix2 d j)) + bg1 (ix1 j) := by
  rw [pre_at, hF.b1_lo]
  refine congrArg (· + bg1 (ix1 j)) ?_
  exact Finset.sum_congr rfl fun d _ => by rw [hF.w1_lo]

/-- The left half of y2 at a node is the feature network's row: the rows of W2 under the gate network's activations
    are zero there. -/
theorem pay11_lo (b : Fin 16) (n : Fin 512) (k : Fin 128) :
    k0_pay11 (F := Ideal) v3 v6 v8 v23 (ix2 (flat b n) (lo k))
      = twoLayer (fun d => v3 (ix3 b n d)) (fun d j => Wn1 (ix2 d j)) (fun j => bn1 (ix1 j)) (fun j => Wn2 (ix2 j k)) := by
  rw [pay11_at]
  refine (sum_halves _).trans ?_
  have h1 : ∀ j : Fin 128, act (pre v3 v6 v8) (ix2 (flat b n) (lo j)) * v23 (ix2 (lo j) (lo k))
      = silu ((∑ d : Fin 128, v3 (ix3 b n d) * Wn1 (ix2 d j)) + bn1 (ix1 j)) * Wn2 (ix2 j k) := fun j => by
    rw [act_lo, pre_hi v3 v6 v8 v23 Wg1 bg1 Wg2 Wn1 bn1 Wn2 hF, hF.w2_lo_lo]
  have h2 : ∀ j : Fin 128, act (pre v3 v6 v8) (ix2 (flat b n) (hi j)) * v23 (ix2 (hi j) (lo k)) = 0 := fun j => by
    rw [hF.w2_hi_lo, mul_zero]
  show (∑ j : Fin 128, act (pre v3 v6 v8) (ix2 (flat b n) (lo j)) * v23 (ix2 (lo j) (lo k)))
      + ∑ j : Fin 128, act (pre v3 v6 v8) (ix2 (flat b n) (hi j)) * v23 (ix2 (hi j) (lo k)) = _
  rw [Finset.sum_congr rfl (fun j _ => h1 j), Finset.sum_eq_zero (fun j _ => h2 j), add_zero]
  rfl

/-- The right half of y2 at a node: the gate network's score in its first column, zero in the others. -/
theorem pay11_hi (b : Fin 16) (n : Fin 512) (k : Fin 128) :
    k0_pay11 (F := Ideal) v3 v6 v8 v23 (ix2 (flat b n) (hi k))
      = if k.val = 0 then
          twoLayer (fun d => v3 (ix3 b n d)) (fun d j => Wg1 (ix2 d j)) (fun j => bg1 (ix1 j)) (fun j => Wg2 (ix2 j 0))
        else 0 := by
  rw [pay11_at]
  refine (sum_halves _).trans ?_
  have h1 : ∀ j : Fin 128, act (pre v3 v6 v8) (ix2 (flat b n) (lo j)) * v23 (ix2 (lo j) (hi k)) = 0 := fun j => by
    rw [hF.w2_lo_hi, mul_zero]
  have h2 : ∀ j : Fin 128, act (pre v3 v6 v8) (ix2 (flat b n) (hi j)) * v23 (ix2 (hi j) (hi k))
      = silu ((∑ d : Fin 128, v3 (ix3 b n d) * Wg1 (ix2 d j)) + bg1 (ix1 j))
          * (if k.val = 0 then Wg2 (ix2 j 0) else 0) := fun j => by
    rw [act_hi, pre_lo v3 v6 v8 v23 Wg1 bg1 Wg2 Wn1 bn1 Wn2 hF, hF.w2_hi_hi]
  show (∑ j : Fin 128, act (pre v3 v6 v8) (ix2 (flat b n) (lo j)) * v23 (ix2 (lo j) (hi k)))
      + ∑ j : Fin 128, act (pre v3 v6 v8) (ix2 (flat b n) (hi j)) * v23 (ix2 (hi j) (hi k)) = _
  rw [Finset.sum_eq_zero (fun j _ => h1 j), Finset.sum_congr rfl (fun j _ => h2 j), zero_add]
  by_cases hk : k.val = 0
  · simp only [if_pos hk]
    rfl
  · simp only [if_neg hk, mul_zero]
    exact Finset.sum_const_zero

/-- The tile's transformed rows: node n of graph b of the tile, coordinate k. -/
theorem feat_tile (v27 : Vec Ideal S128 .f32) (b : Fin 16) (n : Fin 512) (k : Fin 128) :
    k0_pay12 (F := Ideal) v3 v6 v8 v23 v27 (ix3 b n k)
      = twoLayer (fun d => v3 (ix3 b n d)) (fun d j => Wn1 (ix2 d j)) (fun j => bn1 (ix1 j)) (fun j => Wn2 (ix2 j k))
          + v27 (ix1 k) := by
  show shapeCast S16x512x128 (addf (extractStridedSlice S8192x128 ![0, 0] (k0_pay11 (F := Ideal) v3 v6 v8 v23)
        Facts₀.slices_S8192x256_o0_0_S8192x128)
      (broadcastTo S8192x128 (shapeCast S1x128 v27 Facts₀.shapeCasts_S128_S1x128 : FVec Ideal S1x128 .f32) Facts₀.broadcasts_S1x128_S8192x128))
      Facts₀.shapeCasts_S8192x128_S16x512x128 (ix3 b n k) = _
  rw [unflatten_at, addf_apply, leftCols_at, rows128_at, shapeCast_a_1a_apply,
    pay11_lo v3 v6 v8 v23 Wg1 bg1 Wg2 Wn1 bn1 Wn2 hF]

/-- The tile's gate scores: node n of graph b of the tile. -/
theorem score_tile (v35 : Vec Ideal S1 .f32) (b : Fin 16) (n : Fin 512) :
    k0_pay13 (F := Ideal) v3 v6 v8 v23 v35 (ix2 b n)
      = twoLayer (fun d => v3 (ix3 b n d)) (fun d k => Wg1 (ix2 d k)) (fun k => bg1 (ix1 k)) (fun k => Wg2 (ix2 k 0))
          + v35 (ix1 0) := by
  show addf (multiReduction .add [2] S16x512
        (shapeCast S16x512x128 (extractStridedSlice S8192x128 ![0, 128] (k0_pay11 (F := Ideal) v3 v6 v8 v23)
          Facts₀.slices_S8192x256_o0_128_S8192x128) Facts₀.shapeCasts_S8192x128_S16x512x128)
        0x00000000#32 Facts₀.reduces_S16x512x128_S16x512 (.inl rfl) rfl)
      (broadcastTo S16x512 (shapeCast S1x1 v35 Facts₀.shapeCasts_S1_S1x1 : FVec Ideal S1x1 .f32) Facts₀.broadcasts_S1x1_S16x512) (ix2 b n) = _
  rw [addf_apply, all_at, shapeCast_a_1a_apply]
  refine congrArg (· + v35 (ix1 0)) ?_
  refine (Ideal.multiReduction_add_single _ _ Facts₀.reduces_S16x512x128_S16x512 _ _ (ix2 b n)).trans ?_
  -- the sum over the 128 lanes of the right half keeps its first column only
  show ∑ k : Fin 128, shapeCast S16x512x128 (extractStridedSlice S8192x128 ![0, 128] (k0_pay11 (F := Ideal) v3 v6 v8 v23)
      Facts₀.slices_S8192x256_o0_128_S8192x128) Facts₀.shapeCasts_S8192x128_S16x512x128 (Facts₀.reduces_S16x512x128_S16x512.lift (ix2 b n) k) = _
  have hk : ∀ k : Fin 128, shapeCast S16x512x128 (extractStridedSlice S8192x128 ![0, 128] (k0_pay11 (F := Ideal) v3 v6 v8 v23)
      Facts₀.slices_S8192x256_o0_128_S8192x128) Facts₀.shapeCasts_S8192x128_S16x512x128 (Facts₀.reduces_S16x512x128_S16x512.lift (ix2 b n) k)
      = if k.val = 0 then
          twoLayer (fun d => v3 (ix3 b n d)) (fun d j => Wg1 (ix2 d j)) (fun j => bg1 (ix1 j)) (fun j => Wg2 (ix2 j 0))
        else 0 := fun k => by
    rw [lift_lane, unflatten_at, rightCols_at, pay11_hi v3 v6 v8 v23 Wg1 bg1 Wg2 Wn1 bn1 Wn2 hF]
  rw [Finset.sum_congr rfl (fun k _ => hk k)]
  refine (Finset.sum_eq_single (0 : Fin 128) (fun k _ hk0 => ?_) (fun h => absurd (Finset.mem_univ _) h)).trans ?_
  · exact if_neg (fun h => hk0 (Fin.ext h))
  · exact if_pos rfl

end GatedPool.TilePay

end
-- ==== Proof.LibScatterSet.lean ====
/-
  A scatter whose body returns the update — "write these values at these places" — read at one position.

  The scatter visits the update's indices one after another and, for each, replaces the entry at the position that
  index lands on (when it lands inside the array).  Read at a fixed position i, the walk changes the entry only at
  the steps whose landing position is i.  So if exactly one update index j lands on i the result there is the
  update's entry j, and if none does the result is the array's own entry.

  The first part is about any such walk along a list; the second reads the landing position of an update index as
  one equation per axis, "start plus offset inside the window equals the coordinate"; the last states the two facts
  for the scatter itself.
-/
import Idealize.ShloMosaic.PureOps

namespace Cert.Lib.ScatterSet

open Idealize.ShloMosaic

/-! ## Writing along a list -/

section Walk
variable {ι κ α : Type} [DecidableEq κ]

/-- One step of the walk: item `n` lands at position `g n` (if anywhere) and the entry there becomes `upd n`. -/
def put (g : ι → Option κ) (upd : ι → α) (r : κ → α) (n : ι) : κ → α :=
  match g n with
  | some i => fun i' => if i' = i then upd n else r i'
  | none => r

/-- A step that lands on `i` leaves its own value there. -/
theorem put_hit (g : ι → Option κ) (upd : ι → α) (r : κ → α) (n : ι) (i : κ) (h : g n = some i) :
    put g upd r n i = upd n := by
  unfold put
  rw [h]
  exact if_pos rfl

/-- A step that does not land on `i` leaves the entry at `i` as it was. -/
theorem put_miss (g : ι → Option κ) (upd : ι → α) (r : κ → α) (n : ι) (i : κ) (h : g n ≠ some i) :
    put g upd r n i = r i := by
  unfold put
  cases hg : g n with
  | none => rfl
  | some k =>
    have hne : i ≠ k := fun e => h (by rw [hg, e])
    exact if_neg hne

/-- If no item of the list lands on `i`, the walk leaves the entry at `i` as it was. -/
theorem foldl_put_miss (g : ι → Option κ) (upd : ι → α) (L : List ι) (x : κ → α) (i : κ)
    (h : ∀ n ∈ L, g n ≠ some i) : L.foldl (put g upd) x i = x i := by
  induction L using List.reverseRecOn with
  | nil => rfl
  | append_singleton L a ih =>
    rw [List.foldl_append, List.foldl_cons, List.foldl_nil,
      put_miss g upd _ a i (h a (List.mem_append_right _ (List.mem_singleton_self a)))]
    exact ih (fun n hn => h n (List.mem_append_left _ hn))

/-- If item `j` of the list lands on `i` and it is the only item that does, the walk leaves `upd j` at `i`:
    later steps land elsewhere, and earlier writes at `i` (there are none but `j`'s) are overwritten. -/
theorem foldl_put_hit (g : ι → Option κ) (upd : ι → α) (L : List ι) (x : κ → α) (i : κ) (j : ι)
    (hj : j ∈ L) (hji : g j = some i) (huniq : ∀ n ∈ L, g n = some i → n = j) :
    L.foldl (put g upd) x i = upd j := by
  induction L using List.reverseRecOn with
  | nil => exact absurd hj List.not_mem_nil
  | append_singleton L a ih =>
    rw [List.foldl_append, List.foldl_cons, List.foldl_nil]
    by_cases ha : g a = some i
    · rw [put_hit g upd _ a i ha, huniq a (List.mem_append_right _ (List.mem_singleton_self a)) ha]
    · rw [put_miss g upd _ a i ha]
      refine ih ?_ (fun n hn => huniq n (List.mem_append_left _ hn))
      rcases List.mem_append.1 hj with h | h
      · exact h
      · have e : j = a := List.mem_singleton.1 h
        exact absurd (e ▸ hji) ha

end Walk

/-! ## Where an update index lands -/

section Scatter
variable {s si u : Shape} {α : Type} {w : Nat}

/-- Update index `j` lands on position `i` exactly when, on every axis, the window's start plus `j`'s offset inside
    the window is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have e := congrFun (Option.some.inj h) a
      have h0 := (hh a).1
      rw [← e]
      show _ = (((d.start j idx a + d.window j a).toNat : Nat) : Int)
      omega
    · rw [dif_neg hh] at h
      exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    show (d.start j idx a + d.window j a).toNat = (i a).val
    have := h a; omega

/-- The scatter that writes the update is the walk along the update's indices in row-major order. -/
theorem scatter_eq_foldl (d : ScatterDims s si u) (x : s.Idx → α) (idx : IVec si w) (upd : u.Idx → α) :
    Host.scatter d (fun _ b => b) x idx upd =
      ((List.finRange u.numel).map u.rowMajor.symm).foldl (put (fun j => d.resultIdx? j idx) upd) x := by
  rw [List.foldl_map]
  unfold Host.scatter
  refine congrArg (fun f => List.foldl f x (List.finRange u.numel)) (funext fun r => funext fun n => ?_)
  unfold put
  dsimp only
  cases d.resultIdx? (u.rowMajor.symm n) idx <;> rfl

/-- A scatter that writes the update, read at a position `i` that exactly one update index `j` lands on: the
    update's entry `j`. -/
theorem scatter_set_hit (d : ScatterDims s si u) (x : s.Idx → α) (idx : IVec si w) (upd : u.Idx → α)
    (i : s.Idx) (j : u.Idx) (hji : d.resultIdx? j idx = some i)
    (huniq : ∀ j', d.resultIdx? j' idx = some i → j' = j) :
    Host.scatter d (fun _ b => b) x idx upd i = upd j := by
  rw [scatter_eq_foldl]
  exact foldl_put_hit (fun j => d.resultIdx? j idx) upd _ x i j
    (List.mem_map.2 ⟨u.rowMajor j, List.mem_finRange _, u.rowMajor.symm_apply_apply j⟩) hji (fun n _ hn => huniq n hn)

/-- The same when the landing positions of the update's indices are pairwise distinct. -/
theorem scatter_set_hit_of_injective (d : ScatterDims s si u) (x : s.Idx → α) (idx : IVec si w) (upd : u.Idx → α)
    (hinj : ∀ j j' i, d.resultIdx? j idx = some i → d.resultIdx? j' idx = some i → j = j')
    (i : s.Idx) (j : u.Idx) (hji : d.resultIdx? j idx = some i) :
    Host.scatter d (fun _ b => b) x idx upd i = upd j :=
  scatter_set_hit d x idx upd i j hji (fun j' h' => hinj j' j i h' hji)

/-- A scatter that writes the update, read at a position no update index lands on: the array's own entry. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl]
  exact foldl_put_miss (fun j => d.resultIdx? j idx) upd _ x i (fun n _ => h n)

end Scatter

end Cert.Lib.ScatterSet
-- ==== Proof.HostPrefix.lean ====
/-
  The fused weights, as the program builds them before the kernel starts.

  The first-layer weights are the two networks' matrices joined side by side, the biases joined end to end, and the
  second-layer matrix is a 256 × 256 array of zeros into which the feature network's 128 × 128 weights are written at
  rows 0–127, columns 0–127 and the gate network's 128 weights at rows 128–255 of column 128.  A change of float
  format is the identity on the extended reals.

  The two writes are scatters whose window starts at a fixed corner, (0, 0) for the first and (128, 128) for the
  second.  Update entry (a, b) of the first lands on (a, b); update entry a of the second lands on (128 + a, 128).
  Distinct update entries land on distinct positions, so at a position an entry lands on the array holds that entry,
  and elsewhere it holds what it held before: the earlier write's value, or the zero it started with.
-/
import proofs.«403798_j7215545057977_3_alg».proof.Proof.Gen.KernelIdeal.Frame
import proofs.«403798_j7215545057977_3_alg».proof.Proof.Spec
import proofs.«403798_j7215545057977_3_alg».proof.Proof.LibLayoutAt
import proofs.«403798_j7215545057977_3_alg».proof.Proof.LibScatterSet
import Idealize.ShloMosaic.Lib.StableHlo.Run
import Idealize.ShloMosaic.Lib.ValueIdx
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem
open Idealize.ShloMosaic.ValueIdx GatedPool
open Cert.Lib.ScatterSet Cert.Lib.LayoutAt

/-! ## Two vectors joined end to end -/

section EndToEnd
variable {α : Type}

/-- Two vectors joined end to end, read in the FIRST part: the first vector there. -/
theorem endToEnd_left {A B W : Nat} (x : (⟨1, ![A]⟩ : Shape).Idx → α) (y : (⟨1, ![B]⟩ : Shape).Idx → α)
    (h : Shape.Concatenates [⟨1, ![A]⟩, ⟨1, ![B]⟩] ⟨1, ![W]⟩ 0) (c : Fin W) (hc : c.val < A) :
    concatenate ⟨1, ![W]⟩ 0 [⟨⟨1, ![A]⟩, x⟩, ⟨⟨1, ![B]⟩, y⟩] h (ix1 c) = x (ix1 ⟨c.val, hc⟩) :=
  concatenate_pair_apply_left 0 x y h (ix1 c) rfl (ix1 ⟨c.val, hc⟩) (fun b => match b with
    | ⟨0, _⟩ => rfl)

/-- Two vectors joined end to end, read in the SECOND part: the second vector, the first one's length less. -/
theorem endToEnd_right {A B W : Nat} (x : (⟨1, ![A]⟩ : Shape).Idx → α) (y : (⟨1, ![B]⟩ : Shape).Idx → α)
    (h : Shape.Concatenates [⟨1, ![A]⟩, ⟨1, ![B]⟩] ⟨1, ![W]⟩ 0) (c : Fin W) (hc : A ≤ c.val) (hB : c.val - A < B) :
    concatenate ⟨1, ![W]⟩ 0 [⟨⟨1, ![A]⟩, x⟩, ⟨⟨1, ![B]⟩, y⟩] h (ix1 c) = y (ix1 ⟨c.val - A, hB⟩) :=
  concatenate_pair_apply_right 0 x y h (ix1 c) rfl rfl (ix1 ⟨c.val - A, hB⟩)
    (fun b hb => match b, hb with
      | ⟨0, _⟩, hb => absurd rfl hb)
    (by show c.val - A + A = c.val; omega)

end EndToEnd

/-! ## The corner a write starts at -/

/-- The two-entry index vector a write reads its corner from: two scalar integer constants, each made a one-entry
    vector, joined end to end. -/
def idxPair (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- When both constants are the same number, every entry of the index vector is that number. -/
theorem idxPair_const (a : BitVec 32) (k : S2.Idx) : idxPair a a k = a := by
  obtain ⟨k0, rfl⟩ : ∃ k0, k = ix1 k0 := ⟨k 0, eq_ix1 k⟩
  match k0 with
  | ⟨0, _⟩ => rfl
  | ⟨1, _⟩ => rfl

/-- A write into a 256 × 256 array whose two axes both read their start from such an index vector starts, on either
    axis, at that number. -/
theorem start_pair {u : Shape} (d : ScatterDims S256x256 S2 u) (hd : ∀ a, a ∈ d.scatterDimsToOperandDims)
    (z : BitVec 32) (j : u.Idx) (a : Fin 2) : d.start j (idxPair z z) a = z.toInt := by
  unfold ScatterDims.start
  rw [dif_pos (hd a), idxPair_const]

/-- The write of a 128 × 128 block: both of the update's axes are window axes. -/
abbrev d1 := scatter_S256x256_S2_S128x128_01_n_01_0
/-- The write of a 128-entry column: the update's one axis runs down the rows, the column axis is inserted. -/
abbrev d2 := scatter_S256x256_S2_S128_0_1_01_0

theorem hd1 : ∀ a, a ∈ d1.scatterDimsToOperandDims := (by decide : ∀ a : Fin 2, a ∈ ([0, 1] : List (Fin 2)))
theorem hd2 : ∀ a, a ∈ d2.scatterDimsToOperandDims := (by decide : ∀ a : Fin 2, a ∈ ([0, 1] : List (Fin 2)))

/-- Inside the block's window, update entry (a, b) sits at row offset a … -/
theorem window1_0 (j : S128x128.Idx) : d1.window j 0 = (j 0).val := rfl
/-- … and column offset b. -/
theorem window1_1 (j : S128x128.Idx) : d1.window j 1 = (j 1).val := rfl
/-- Inside the column's window, update entry a sits at row offset a … -/
theorem window2_0 (j : S128.Idx) : d2.window j 0 = (j 0).val := rfl
/-- … and column offset 0. -/
theorem window2_1 (j : S128.Idx) : d2.window j 1 = 0 := rfl

/-- Entry (a, b) of the block, written from the corner (0, 0), lands on position (r, q) exactly when a = r, b = q. -/
theorem lands1 (j : S128x128.Idx) (r q : Fin 256) :
    d1.resultIdx? j (idxPair 0#32 0#32) = some (ix2 r q) ↔ (j 0).val = r.val ∧ (j 1).val = q.val := by
  rw [resultIdx?_eq_some_iff, Fin.forall_fin_two, start_pair d1 hd1, start_pair d1 hd1, window1_0, window1_1]
  show ((0#32 : BitVec 32).toInt + ((j 0).val : ℤ) = (r.val : ℤ)) ∧ ((0#32 : BitVec 32).toInt + ((j 1).val : ℤ) = (q.val : ℤ)) ↔ _
  have z : (0#32 : BitVec 32).toInt = 0 := by decide
  rw [z]
  omega

/-- Entry a of the column, written from the corner (128, 128), lands on (r, q) exactly when 128 + a = r, 128 = q. -/
theorem lands2 (j : S128.Idx) (r q : Fin 256) :
    d2.resultIdx? j (idxPair 128#32 128#32) = some (ix2 r q) ↔ 128 + (j 0).val = r.val ∧ 128 = q.val := by
  rw [resultIdx?_eq_some_iff, Fin.forall_fin_two, start_pair d2 hd2, start_pair d2 hd2, window2_0, window2_1]
  show ((128#32 : BitVec 32).toInt + ((j 0).val : ℤ) = (r.val : ℤ)) ∧ ((128#32 : BitVec 32).toInt + ((0 : ℕ) : ℤ) = (q.val : ℤ)) ↔ _
  have z : (128#32 : BitVec 32).toInt = 128 := by decide
  rw [z]
  omega

/-! ## The two writes, read at a position -/

section Writes
variable (x : S256x256.Idx → EReal) (A : S128x128.Idx → EReal) (B : S128.Idx → EReal)

/-- After the block is written, position (j, k) of the top-left quarter holds the block's entry (j, k). -/
theorem scat1_hit (j k : Fin 128) :
    Host.scatter d1 (fun _ b => b) x (idxPair 0#32 0#32) A (ix2 (lo j) (lo k)) = A (ix2 j k) :=
  scatter_set_hit d1 x _ A _ (ix2 j k) ((lands1 _ _ _).2 ⟨rfl, rfl⟩) (fun j' h' => by
    have h := (lands1 j' _ _).1 h'
    have e0 : (j' 0 : Fin 128) = j := Fin.ext h.1
    have e1 : (j' 1 : Fin 128) = k := Fin.ext h.2
    exact (eq_ix2 j').trans (congrArg₂ ix2 e0 e1))

/-- The block's write leaves every position outside the top-left quarter as it was. -/
theorem scat1_miss (r q : Fin 256) (h : 128 ≤ r.val ∨ 128 ≤ q.val) :
    Host.scatter d1 (fun _ b => b) x (idxPair 0#32 0#32) A (ix2 r q) = x (ix2 r q) :=
  scatter_set_miss d1 x _ A _ (fun j' h' => by
    have h2 := (lands1 j' r q).1 h'
    have h0 : (j' 0).val < 128 := (j' 0).isLt
    have h1 : (j' 1).val < 128 := (j' 1).isLt
    omega)

/-- After the column is written, row 128 + j of column 128 holds the column's entry j. -/
theorem scat2_hit (j : Fin 128) :
    Host.scatter d2 (fun _ b => b) x (idxPair 128#32 128#32) B (ix2 (hi j) (hi 0)) = B (ix1 j) :=
  scatter_set_hit d2 x _ B _ (ix1 j) ((lands2 _ _ _).2 ⟨rfl, rfl⟩) (fun j' h' => by
    have h := (lands2 j' _ _).1 h'
    have h1 : 128 + (j' 0).val = 128 + j.val := h.1
    have e0 : (j' 0 : Fin 128) = j := Fin.ext (by omega)
    exact (eq_ix1 j').trans (congrArg ix1 e0))

/-- The column's write leaves every position above row 128, and every position off column 128, as it was. -/
theorem scat2_miss (r q : Fin 256) (h : r.val < 128 ∨ q.val ≠ 128) :
    Host.scatter d2 (fun _ b => b) x (idxPair 128#32 128#32) B (ix2 r q) = x (ix2 r q) :=
  scatter_set_miss d2 x _ B _ (fun j' h' => by
    have h2 := (lands2 j' r q).1 h'
    omega)

end Writes

/-- The array of zeros the writes start from. -/
theorem zeros_apply (i : S256x256.Idx) :
    broadcastInDim S256x256 ![] bcast_S_S256x256 (constant (F := Ideal) S_ .f32 0x00000000#32) i = (0 : EReal) := by
  show Ideal.ofBits .f32 0x00000000#32 = 0
  simp [Ideal.ofBits, Ideal.ieee]

/-- A 128 × 1 matrix reshaped to a vector: entry j is entry (j, 0). -/
theorem column_at (C : S128x1.Idx → EReal) (j : Fin 128) :
    shapeCast S128 C shapeCasts_S128x1_S128 (ix1 j) = C (ix2 j 0) :=
  shapeCast_apply C _ (ix1 j) (ix2 j 0) (by
    rw [Shape.rowMajor_val_two, Shape.rowMajor_val_one]
    show j.val * 1 + 0 = j.val
    omega)

/-! ## The block-diagonal second-layer array -/

/-- Zeros, then the 128 × 128 matrix `A` written from the corner (0, 0), then the 128 × 1 matrix `C`, as a column,
    written from the corner (128, 128). -/
def blockDiag (A : S128x128.Idx → EReal) (C : S128x1.Idx → EReal) : S256x256.Idx → EReal :=
  Host.scatter d2 (fun _ b => b)
    (Host.scatter d1 (fun _ b => b)
      (broadcastInDim S256x256 ![] bcast_S_S256x256 (constant (F := Ideal) S_ .f32 0x00000000#32))
      (idxPair 0#32 0#32) A)
    (idxPair 128#32 128#32) (shapeCast S128 C shapeCasts_S128x1_S128)

section BlockDiag
variable (A : S128x128.Idx → EReal) (C : S128x1.Idx → EReal)

/-- Top-left quarter: the matrix `A`. -/
theorem blockDiag_lo_lo (j k : Fin 128) : blockDiag A C (ix2 (lo j) (lo k)) = A (ix2 j k) :=
  (scat2_miss _ _ _ _ (Or.inl j.isLt)).trans (scat1_hit _ _ j k)

/-- Top-right quarter: zero. -/
theorem blockDiag_lo_hi (j k : Fin 128) : blockDiag A C (ix2 (lo j) (hi k)) = 0 :=
  (scat2_miss _ _ _ _ (Or.inl j.isLt)).trans
    ((scat1_miss _ _ _ _ (Or.inr (Nat.le_add_right 128 k.val))).trans (zeros_apply _))

/-- Bottom-left quarter: zero. -/
theorem blockDiag_hi_lo (j k : Fin 128) : blockDiag A C (ix2 (hi j) (lo k)) = 0 :=
  (scat2_miss _ _ _ _ (Or.inr (by show k.val ≠ 128; have := k.isLt; omega))).trans
    ((scat1_miss _ _ _ _ (Or.inl (Nat.le_add_right 128 j.val))).trans (zeros_apply _))

/-- Bottom-right quarter: the column `C` in its first column, zero in the others. -/
theorem blockDiag_hi_hi (j k : Fin 128) :
    blockDiag A C (ix2 (hi j) (hi k)) = if k.val = 0 then C (ix2 j 0) else 0 := by
  by_cases hk : k.val = 0
  · rw [if_pos hk]
    have e : k = 0 := Fin.ext hk
    subst e
    exact (scat2_hit _ _ j).trans (column_at C j)
  · rw [if_neg hk]
    exact (scat2_miss _ _ _ _ (Or.inr (by show 128 + k.val ≠ 128; omega))).trans
      ((scat1_miss _ _ _ _ (Or.inl (Nat.le_add_right 128 j.val))).trans (zeros_apply _))

end BlockDiag

/-! ## The three arrays the program builds -/

variable (m : (ℓ : Loc nD τ sig) → Buf (Elt Ideal) ℓ)

/-- The first-layer weights: the two matrices side by side (the change of float format is the identity). -/
theorem v1_eq (c : Dev nD) : (V m c main_v1 : S128x256.Idx → EReal) =
    concatenate S128x256 1
      [⟨S128x128, (m ((c : Thread nD τ).loc main_arg1) : S128x128.Idx → EReal)⟩,
       ⟨S128x128, (m ((c : Thread nD τ).loc main_arg5) : S128x128.Idx → EReal)⟩]
      concatenates_S128x128_S128x128_S128x256_d1 := by
  dsimp only [Gen.V, Gen.hostOps0]; after_results; rfl

/-- The first-layer biases: the two vectors end to end. -/
theorem v2_eq (c : Dev nD) : (V m c main_v2 : S256.Idx → EReal) =
    concatenate S256 0
      [⟨S128, (m ((c : Thread nD τ).loc main_arg2) : S128.Idx → EReal)⟩,
       ⟨S128, (m ((c : Thread nD τ).loc main_arg6) : S128.Idx → EReal)⟩]
      concatenates_S128_S128_S256_d0 := by
  dsimp only [Gen.V, Gen.hostOps0]; after_results

/-- The second-layer weights: the block-diagonal array (the change of float format is the identity). -/
theorem v13_eq (c : Dev nD) : (V m c main_v13 : S256x256.Idx → EReal) =
    blockDiag (m ((c : Thread nD τ).loc main_arg7)) (m ((c : Thread nD τ).loc main_arg3)) := by
  dsimp only [Gen.V, Gen.hostOps0]; after_results; rfl

/-- The arrays the kernel's weight windows stage are the fused weights of the argument arrays. -/
theorem fused (c : Dev nD) :
    Fused (V m c main_v1) (V m c main_v2) (V m c main_v13)
      (m ((c : Thread nD τ).loc main_arg1)) (m ((c : Thread nD τ).loc main_arg2)) (m ((c : Thread nD τ).loc main_arg3))
      (m ((c : Thread nD τ).loc main_arg5)) (m ((c : Thread nD τ).loc main_arg6)) (m ((c : Thread nD τ).loc main_arg7)) := by
  constructor
  · intro d k
    refine (congrFun (v1_eq m c) (ix2 d (lo k))).trans ?_
    exact sideBySide_left _ _ _ d (lo k) k.isLt
  · intro d k
    refine (congrFun (v1_eq m c) (ix2 d (hi k))).trans ?_
    refine (sideBySide_right _ _ _ d (hi k) (Nat.le_add_right 128 k.val)
      (by show 128 + k.val - 128 < 128; have := k.isLt; omega)).trans ?_
    exact congrArg (fun t => (m ((c : Thread nD τ).loc main_arg5) : S128x128.Idx → EReal) (ix2 d t))
      (Fin.ext (by show 128 + k.val - 128 = k.val; omega))
  · intro k
    refine (congrFun (v2_eq m c) (ix1 (lo k))).trans ?_
    exact endToEnd_left _ _ _ (lo k) k.isLt
  · intro k
    refine (congrFun (v2_eq m c) (ix1 (hi k))).trans ?_
    refine (endToEnd_right _ _ _ (hi k) (Nat.le_add_right 128 k.val)
      (by show 128 + k.val - 128 < 128; have := k.isLt; omega)).trans ?_
    exact congrArg (fun t => (m ((c : Thread nD τ).loc main_arg6) : S128.Idx → EReal) (ix1 t))
      (Fin.ext (by show 128 + k.val - 128 = k.val; omega))
  · intro j k
    exact (congrFun (v13_eq m c) (ix2 (lo j) (lo k))).trans (blockDiag_lo_lo _ _ j k)
  · intro j k
    exact (congrFun (v13_eq m c) (ix2 (lo j) (hi k))).trans (blockDiag_lo_hi _ _ j k)
  · intro j k
    exact (congrFun (v13_eq m c) (ix2 (hi j) (lo k))).trans (blockDiag_hi_lo _ _ j k)
  · intro j k
    exact (congrFun (v13_eq m c) (ix2 (hi j) (hi k))).trans (blockDiag_hi_hi _ _ j k)

end Cert.KernelIdeal.HostPrefix

end
-- ==== Proof.Geometry.lean ====
/-
  Which part of the arrays each grid point sees, and which grid point's block each row of the result comes from.

  The grid has 2 × 16 points; point (bi, ni) is number 16·bi + ni.  It stages graphs 16·bi … 16·bi + 15 and nodes
  512·ni … 512·ni + 511 of the node features, the whole of every weight array, and writes its output block — rows
  16·bi … 16·bi + 15 of the result — back only after the half's last tile, ni = 15.
-/
import proofs.«403798_j7215545057977_3_alg».proof.Proof.Gen.KernelIdeal.Value
import proofs.«403798_j7215545057977_3_alg».proof.Proof.Spec
import Idealize.ShloMosaic.Lib.ValueIdx
import Idealize.ShloMosaic.Lib.Pipeline.Value

noncomputable section

namespace Cert.KernelIdeal.Geometry

open Cert.KernelIdeal Cert.KernelIdeal.Gen Idealize.ShloMosaic Idealize.ShloMosaic.TcCoe Idealize.SL.Sem
open Idealize.ShloMosaic.Pipeline (Dat)
open Idealize.ShloMosaic.ValueIdx GatedPool

variable {F : FTy → Type} [FloatOps F]
variable (m : (ℓ : Loc nD τ sig) → Buf (Elt F) ℓ)

/-- Grid point (bi, ni), numbered in row-major order. -/
def pt (bi : Fin 2) (ni : Fin 16) : Fin cfg0.N :=
  ⟨16 * bi.val + ni.val, by have := bi.isLt; have := ni.isLt; have : cfg0.N = 32 := N_0; omega⟩

theorem pt_val (bi : Fin 2) (ni : Fin 16) : (pt bi ni).val = 16 * bi.val + ni.val := rfl

/-- The printed index maps at every grid point: the node features' block index is (bi, ni, 0), each weight array's
    block index is zero on every axis, and the result's block index is (bi, 0) — with bi = t / 16 and ni = t % 16. -/
theorem index_maps : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val / 16 ∧ win0_6.index t (1 : Fin 2) = 0 :=
  (by decide +kernel : ∀ t : Fin grid0.N, _)

/-- The node-feature block of point (bi, ni): graph b of the half, node n of the tile. -/
theorem xblock_at (c : Dev nD) (bi : Fin 2) (ni : Fin 16) (b : Fin 16) (n : Fin 512) (d : Fin 128) :
    (iblk m c 0 (pt bi ni) : Vec F S16x512x128 .f32) (ix3 b n d)
      = (m ((c : Thread nD τ).loc main_arg0)) (ix3 (row bi b) (node ni n) d) := by
  obtain ⟨e0, e1, e2, -⟩ := index_maps (pt bi ni)
  have hb := bi.isLt; have hn := ni.isLt
  unfold iblk
  rw [View.read_apply]
  show V m c main_arg0 (((cfg0.win 0).blk (pt bi ni)).view.emb (ix3 b n d)) = m ((c : Thread nD τ).loc main_arg0) (ix3 (row bi b) (node ni n) d)
  rw [V_main_arg0]
  congr 1
  funext a
  apply Fin.ext
  match a with
  | ⟨0, _⟩ => show win0_0.index (pt bi ni) (0 : Fin 3) * 16 + 1 * b.val = 16 * bi.val + b.val; rw [e0, pt_val]; omega
  | ⟨1, _⟩ => show win0_0.index (pt bi ni) (1 : Fin 3) * 512 + 1 * n.val = 512 * ni.val + n.val; rw [e1, pt_val]; omega
  | ⟨2, _⟩ => show win0_0.index (pt bi ni) (2 : Fin 3) * 128 + 1 * d.val = d.val; rw [e2]; omega

/-- The weight windows stage their whole arrays at every point. -/
theorem wblock1 (c : Dev nD) (t : Fin cfg0.N) : (iblk m c 1 t : Vec F S128x256 .bf16) = V m c main_v1 := by
  obtain ⟨-, -, -, e0, e1, -⟩ := index_maps t
  funext j
  unfold iblk
  rw [View.read_apply]
  show V m c main_v1 (((cfg0.win 1).blk t).view.emb j) = V m c main_v1 j
  congr 1
  funext a
  apply Fin.ext
  match a with
  | ⟨0, _⟩ => show win0_1.index t (0 : Fin 2) * 128 + 1 * (j 0).val = (j 0).val; rw [e0]; omega
  | ⟨1, _⟩ => show win0_1.index t (1 : Fin 2) * 256 + 1 * (j 1).val = (j 1).val; rw [e1]; omega
theorem wblock2 (c : Dev nD) (t : Fin cfg0.N) : (iblk m c 2 t : Vec F S256 .f32) = V m c main_v2 := by
  obtain ⟨-, -, -, -, -, e0, -⟩ := index_maps t
  funext j
  unfold iblk
  rw [View.read_apply]
  show V m c main_v2 (((cfg0.win 2).blk t).view.emb j) = V m c main_v2 j
  congr 1
  funext a
  apply Fin.ext
  match a with
  | ⟨0, _⟩ => show win0_2.index t (0 : Fin 1) * 256 + 1 * (j 0).val = (j 0).val; rw [e0]; omega
theorem wblock3 (c : Dev nD) (t : Fin cfg0.N) : (iblk m c 3 t : Vec F S256x256 .bf16) = V m c main_v13 := by
  obtain ⟨-, -, -, -, -, -, e0, e1, -⟩ := index_maps t
  funext j
  unfold iblk
  rw [View.read_apply]
  show V m c main_v13 (((cfg0.win 3).blk t).view.emb j) = V m c main_v13 j
  congr 1
  funext a
  apply Fin.ext
  match a with
  | ⟨0, _⟩ => show win0_3.index t (0 : Fin 2) * 256 + 1 * (j 0).val = (j 0).val; rw [e0]; omega
  | ⟨1, _⟩ => show win0_3.index t (1 : Fin 2) * 256 + 1 * (j 1).val = (j 1).val; rw [e1]; omega
theorem wblock4 (c : Dev nD) (t : Fin cfg0.N) : (iblk m c 4 t : Vec F S128 .f32) = (m ((c : Thread nD τ).loc main_arg8)) := by
  obtain ⟨-, -, -, -, -, -, -, -, e0, -⟩ := index_maps t
  funext j
  unfold iblk
  rw [View.read_apply]
  show V m c main_arg8 (((cfg0.win 4).blk t).view.emb j) = m ((c : Thread nD τ).loc main_arg8) j
  rw [V_main_arg8]
  congr 1
  funext a
  apply Fin.ext
  match a with
  | ⟨0, _⟩ => show win0_4.index t (0 : Fin 1) * 128 + 1 * (j 0).val = (j 0).val; rw [e0]; omega
theorem wblock5 (c : Dev nD) (t : Fin cfg0.N) : (iblk m c 5 t : Vec F S1 .f32) = (m ((c : Thread nD τ).loc main_arg4)) := by
  obtain ⟨-, -, -, -, -, -, -, -, -, e0, -⟩ := index_maps t
  funext j
  unfold iblk
  rw [View.read_apply]
  show V m c main_arg4 (((cfg0.win 5).blk t).view.emb j) = m ((c : Thread nD τ).loc main_arg4) j
  rw [V_main_arg4]
  congr 1
  funext a
  apply Fin.ext
  match a with
  | ⟨0, _⟩ => show win0_5.index t (0 : Fin 1) * 1 + 1 * (j 0).val = (j 0).val; rw [e0]; omega

/-- An index of the result array lies in the output block of point t iff each of its coordinates lies in the block's range. -/
theorem mem_outblock (t : Fin cfg0.N) (i : S32x128.Idx) :
    i ∈ ((cfg0.win 6).blk t).view.set ↔ ∀ a : Fin 2, win0_6.index t a * S16x128.size a ≤ (i a).val ∧ (i a).val < win0_6.index t a * S16x128.size a + S16x128.size a := by
  show i ∈ ((View.whole main_v14).slice (win0_6.rect t)).set ↔ _
  rw [View.set_slice_whole, Rect.mem_set_unit]
  exact Iff.rfl

/-- The two points that write the output block back — the last tile of each half — write disjoint row ranges. -/
theorem outblocks_disjoint (t t' : Fin cfg0.N) (hf : (cfg0.win 6).flush t = true) (hf' : (cfg0.win 6).flush t' = true) (hne : t ≠ t') :
    Disjoint ((cfg0.win 6).blk t).view.set ((cfg0.win 6).blk t').view.set := by
  rw [Finset.disjoint_left]
  intro i hi hi'
  rw [mem_outblock] at hi hi'
  have r : win0_6.index t (0 : Fin 2) * 16 ≤ (i 0).val ∧ (i 0).val < win0_6.index t (0 : Fin 2) * 16 + 16 := hi 0
  have r' : win0_6.index t' (0 : Fin 2) * 16 ≤ (i 0).val ∧ (i 0).val < win0_6.index t' (0 : Fin 2) * 16 + 16 := hi' 0
  obtain ⟨-, -, -, -, -, -, -, -, -, -, e, -⟩ := index_maps t
  obtain ⟨-, -, -, -, -, -, -, -, -, -, e', -⟩ := index_maps t'
  have h15 := (flush0_6 t).mp hf
  have h15' := (flush0_6 t').mp hf'
  have hv : t.val ≠ t'.val := fun h => hne (Fin.ext h)
  rw [e] at r; rw [e'] at r'
  omega

/-- After the run, row 16·bi + b of the result array is row b of what the half's last point left in the output block. -/
theorem final_at (c : Dev nD) (bi : Fin 2) (b : Fin 16) (k : Fin 128) :
    (dats m 0 c).arrAt 6 cfg0.N (ix2 (row bi b) k)
      = ((outsAt0 m c (pt bi 15).val (pt bi 15).isLt).1 : Vec F S16x128 .f32) (ix2 b k) := by
  have hf : (cfg0.win 6).flush (pt bi 15) = true := (flush0_6 _).mpr (by rw [pt_val]; show (16 * bi.val + 15) % 16 = 15; omega)
  obtain ⟨-, -, -, -, -, -, -, -, -, -, e0, e1⟩ := index_maps (pt bi 15)
  have hb := bi.isLt
  have h := (dats m 0 c).arrAt_emb_eq_flushed 6 (outblocks_disjoint) (pt bi 15) hf (ix2 b k)
  rw [Value.flushed6] at h
  have he : ((cfg0.win 6).blk (pt bi 15)).view.emb (ix2 b k) = ix2 (row bi b) k := by
    funext a
    apply Fin.ext
    match a with
    | ⟨0, _⟩ => show win0_6.index (pt bi 15) (0 : Fin 2) * 16 + 1 * b.val = 16 * bi.val + b.val; rw [e0, pt_val]; show (16 * bi.val + 15) / 16 * 16 + 1 * b.val = _; omega
    | ⟨1, _⟩ => show win0_6.index (pt bi 15) (1 : Fin 2) * 128 + 1 * k.val = k.val; rw [e1]; omega
  rw [he] at h
  exact h

end Cert.KernelIdeal.Geometry

end
-- ==== Proof.SpecSoftmax.lean ====
/-
  A graph's 8192 nodes are visited in 16 tiles of 512.  Fed the tiles' scores and transformed rows, the
  running-maximum recurrence ends with a weighted sum and a normaliser whose quotient is the graph's softmax-weighted
  sum: the law of the blockwise recurrence, with the tiles covering the nodes exactly once (node = 512·tile + offset).
  Real scores and real rows are what the law needs.
-/
import proofs.«403798_j7215545057977_3_alg».proof.Proof.Spec
import proofs.«403798_j7215545057977_3_alg».proof.Proof.LibOnlineSoftmax

noncomputable section

namespace GatedPool

open Idealize.ShloMosaic Idealize.ShloMosaic.ValueIdx
open scoped BigOperators

section
variable (X : (⟨3, ![32, 8192, 128]⟩ : Shape).Idx → EReal)
  (Wg1 : (⟨2, ![128, 128]⟩ : Shape).Idx → EReal) (bg1 : (⟨1, ![128]⟩ : Shape).Idx → EReal)
  (Wg2 : (⟨2, ![128, 1]⟩ : Shape).Idx → EReal) (bg2 : (⟨1, ![1]⟩ : Shape).Idx → EReal)
  (Wn1 : (⟨2, ![128, 128]⟩ : Shape).Idx → EReal) (bn1 : (⟨1, ![128]⟩ : Shape).Idx → EReal)
  (Wn2 : (⟨2, ![128, 128]⟩ : Shape).Idx → EReal) (bn2 : (⟨1, ![128]⟩ : Shape).Idx → EReal)

/-- The scores of graph B, tile by tile (tile t, offset j is node 512·t + j; beyond the 16 tiles the numbering wraps,
    which nothing reads). -/
def sTile (B : Fin 32) (t : ℕ) (j : Fin 512) : EReal :=
  score X Wg1 bg1 Wg2 bg2 B ⟨(512 * t + j.val) % 8192, Nat.mod_lt _ (by norm_num)⟩

/-- Coordinate k of the transformed rows of graph B, tile by tile. -/
def vTile (B : Fin 32) (k : Fin 128) (t : ℕ) (j : Fin 512) : EReal :=
  feat X Wn1 bn1 Wn2 bn2 B ⟨(512 * t + j.val) % 8192, Nat.mod_lt _ (by norm_num)⟩ k

theorem sTile_node (B : Fin 32) (ni : Fin 16) (n : Fin 512) :
    sTile X Wg1 bg1 Wg2 bg2 B ni.val n = score X Wg1 bg1 Wg2 bg2 B (node ni n) := by
  have e : (⟨(512 * ni.val + n.val) % 8192, Nat.mod_lt _ (by norm_num)⟩ : Fin 8192) = node ni n :=
    Fin.ext (Nat.mod_eq_of_lt (by have := ni.isLt; have := n.isLt; omega))
  unfold sTile
  rw [e]

theorem vTile_node (B : Fin 32) (k : Fin 128) (ni : Fin 16) (n : Fin 512) :
    vTile X Wn1 bn1 Wn2 bn2 B k ni.val n = feat X Wn1 bn1 Wn2 bn2 B (node ni n) k := by
  have e : (⟨(512 * ni.val + n.val) % 8192, Nat.mod_lt _ (by norm_num)⟩ : Fin 8192) = node ni n :=
    Fin.ext (Nat.mod_eq_of_lt (by have := ni.isLt; have := n.isLt; omega))
  unfold vTile
  rw [e]

/-- After the 16 tiles, weighted sum over normaliser is the graph's summary. -/
theorem pooled_eq_run (hs : ∀ b n, ∃ r : ℝ, score X Wg1 bg1 Wg2 bg2 b n = (r : EReal))
    (hv : ∀ b n k, ∃ r : ℝ, feat X Wn1 bn1 Wn2 bn2 b n k = (r : EReal)) (B : Fin 32) (k : Fin 128) :
    Ideal.div (OnlineSoftmax.run (sTile X Wg1 bg1 Wg2 bg2 B) (vTile X Wn1 bn1 Wn2 bn2 B k) 16).2.2
        (OnlineSoftmax.run (sTile X Wg1 bg1 Wg2 bg2 B) (vTile X Wn1 bn1 Wn2 bn2 B k) 16).2.1
      = pooled X Wg1 bg1 Wg2 bg2 Wn1 bn1 Wn2 bn2 B k := by
  have hmod : ∀ (p : Fin 16 × Fin 512), (512 * p.1.val + p.2.val) % 8192 = 512 * p.1.val + p.2.val := fun p => by
    have := p.1.isLt; have := p.2.isLt
    exact Nat.mod_eq_of_lt (by omega)
  have hlt : ∀ (p : Fin 16 × Fin 512), 512 * p.1.val + p.2.val < 8192 := fun p => by
    have := p.1.isLt; have := p.2.isLt; omega
  refine OnlineSoftmax.run_eq_softmax (sTile X Wg1 bg1 Wg2 bg2 B) (vTile X Wn1 bn1 Wn2 bn2 B k) 16 (by norm_num)
    (score X Wg1 bg1 Wg2 bg2 B) (fun n => feat X Wn1 bn1 Wn2 bn2 B n k)
    (fun p => ⟨512 * p.1.val + p.2.val, hlt p⟩) ?_ ?_ ?_ ?_ ?_ ?_ ?_
  · intro p q hpq
    have h := congrArg Fin.val hpq
    simp only at h
    have := p.2.isLt; have := q.2.isLt
    apply Prod.ext
    · apply Fin.ext; omega
    · apply Fin.ext; omega
  · intro p
    have e : (⟨(512 * p.1.val + p.2.val) % 8192, Nat.mod_lt _ (by norm_num)⟩ : Fin 8192) = ⟨512 * p.1.val + p.2.val, hlt p⟩ :=
      Fin.ext (hmod p)
    show score X Wg1 bg1 Wg2 bg2 B _ = sTile X Wg1 bg1 Wg2 bg2 B p.1.val p.2
    unfold sTile
    rw [e]
  · intro p
    have e : (⟨(512 * p.1.val + p.2.val) % 8192, Nat.mod_lt _ (by norm_num)⟩ : Fin 8192) = ⟨512 * p.1.val + p.2.val, hlt p⟩ :=
      Fin.ext (hmod p)
    show feat X Wn1 bn1 Wn2 bn2 B _ k = vTile X Wn1 bn1 Wn2 bn2 B k p.1.val p.2
    unfold vTile
    rw [e]
  · intro x hx
    exfalso
    apply hx
    refine ⟨(⟨x.val / 512, by have := x.isLt; omega⟩, ⟨x.val % 512, Nat.mod_lt _ (by norm_num)⟩), ?_⟩
    apply Fin.ext
    show 512 * (x.val / 512) + x.val % 512 = x.val
    exact Nat.div_add_mod x.val 512
  · intro t _ j
    exact Or.inr (hs B _)
  · exact ⟨⟨0, by norm_num⟩, hs B _⟩
  · intro x
    exact hv B x k

end

end GatedPool

end
-- ==== Proof.Points.lean ====
/-
  The carried values, point by point.

  Within one half of the batch the 16 grid points visit the 16 node tiles in order, carrying for each of the half's
  16 graphs a running maximum, a normaliser and (per output coordinate) a weighted sum.  The first tile starts them
  from -∞, 0, 0; every tile applies one step of the running-maximum recurrence to the tile's scores and transformed
  rows, which are the gate network's scores and the feature network's rows of that tile's nodes.  So after tile ni the
  carried values are the recurrence's state after ni + 1 blocks of the graph's own scores and rows; after the last
  tile the output block is weighted sum over normaliser, and by the recurrence's law that is the graph's
  softmax-weighted sum.
-/
import proofs.«403798_j7215545057977_3_alg».proof.Proof.Pieces
import proofs.«403798_j7215545057977_3_alg».proof.Proof.TileStep
import proofs.«403798_j7215545057977_3_alg».proof.Proof.TilePay
import proofs.«403798_j7215545057977_3_alg».proof.Proof.HostPrefix
import proofs.«403798_j7215545057977_3_alg».proof.Proof.Geometry
import proofs.«403798_j7215545057977_3_alg».proof.Proof.SpecSoftmax

noncomputable section

namespace Cert.KernelIdeal.Points

open Cert.KernelIdeal Cert.KernelIdeal.Gen Idealize.ShloMosaic Idealize.ShloMosaic.TcCoe Idealize.SL.Sem
open Idealize.ShloMosaic.Pipeline (Dat)
open Idealize.ShloMosaic.ValueIdx GatedPool Cert.KernelIdeal.Geometry

variable (m : (ℓ : Loc nD τ sig) → Buf (Elt Ideal) ℓ)

/-- The gate scores the body computes at point t: graph b of the half, node n of the tile. -/
abbrev gT (c : Dev nD) (t : Fin cfg0.N) : FVec Ideal S16x512 .f32 :=
  k0_pay13 (F := Ideal) (iblk m c 0 t) (iblk m c 1 t) (iblk m c 2 t) (iblk m c 3 t) (iblk m c 5 t)
/-- The transformed rows the body computes at point t. -/
abbrev hT (c : Dev nD) (t : Fin cfg0.N) : FVec Ideal S16x512x128 .f32 :=
  k0_pay12 (F := Ideal) (iblk m c 0 t) (iblk m c 1 t) (iblk m c 2 t) (iblk m c 3 t) (iblk m c 4 t)
/-- The tile's maximum score, graph by graph. -/
abbrev mxT (c : Dev nD) (t : Fin cfg0.N) : FVec Ideal S16x1 .f32 :=
  k0_pay14 (F := Ideal) (iblk m c 0 t) (iblk m c 1 t) (iblk m c 2 t) (iblk m c 3 t) (iblk m c 5 t)

theorem mx_fold (c : Dev nD) (t : Fin cfg0.N) (b : Fin 16) :
    mxT m c t (ix2 b 0) = (Finset.univ : Finset (Fin 512)).fold max ⊥ (fun n => gT m c t (ix2 b n)) :=
  TilePay.max_tile _ _ _ _ _ b

/-- The weights every point stages are the fused weights of the argument arrays. -/
theorem fused_at (c : Dev nD) (t : Fin cfg0.N) :
    Fused (iblk m c 1 t) (iblk m c 2 t) (iblk m c 3 t) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  have h := HostPrefix.fused m c
  rw [← Geometry.wblock1 m c t, ← Geometry.wblock2 m c t, ← Geometry.wblock3 m c t] at h
  exact h

/-- The scores of point (bi, ni) are the gate network's scores of graphs 16·bi … and nodes 512·ni …. -/
theorem tile_score (c : Dev nD) (bi : Fin 2) (ni : Fin 16) (b : Fin 16) (n : Fin 512) :
    gT m c (pt bi ni) (ix2 b n) = score (m ((c : Thread nD τ).loc main_arg0)) (m ((c : Thread nD τ).loc main_arg1)) (m ((c : Thread nD τ).loc main_arg2)) (m ((c : Thread nD τ).loc main_arg3)) (m ((c : Thread nD τ).loc main_arg4)) (row bi b) (node ni n) := by
  refine (TilePay.score_tile (iblk m c 0 (pt bi ni)) (iblk m c 1 (pt bi ni)) (iblk m c 2 (pt bi ni)) (iblk m c 3 (pt bi ni))
    _ _ _ _ _ _ (fused_at m c (pt bi ni)) (iblk m c 5 (pt bi ni)) b n).trans ?_
  unfold score
  rw [Geometry.wblock5 m c (pt bi ni)]
  congr 2
  funext d
  exact Geometry.xblock_at m c bi ni b n d

/-- The rows of point (bi, ni) are the feature network's rows of those graphs and nodes. -/
theorem tile_feat (c : Dev nD) (bi : Fin 2) (ni : Fin 16) (b : Fin 16) (n : Fin 512) (k : Fin 128) :
    hT m c (pt bi ni) (ix3 b n k) = feat (m ((c : Thread nD τ).loc main_arg0)) (m ((c : Thread nD τ).loc main_arg5)) (m ((c : Thread nD τ).loc main_arg6)) (m ((c : Thread nD τ).loc main_arg7)) (m ((c : Thread nD τ).loc main_arg8)) (row bi b) (node ni n) k := by
  refine (TilePay.feat_tile (iblk m c 0 (pt bi ni)) (iblk m c 1 (pt bi ni)) (iblk m c 2 (pt bi ni)) (iblk m c 3 (pt bi ni))
    _ _ _ _ _ _ (fused_at m c (pt bi ni)) (iblk m c 4 (pt bi ni)) b n k).trans ?_
  unfold feat
  rw [Geometry.wblock4 m c (pt bi ni)]
  congr 2
  funext d
  exact Geometry.xblock_at m c bi ni b n d

/-- A half's first tile: the three carried values are one step of the recurrence from -∞, 0, 0. -/
theorem step_A (c : Dev nD) (t : Fin cfg0.N) (h0 : t.val % 16 = 0) (h1 : ¬t.val % 16 = 15) (b : Fin 16) (k : Fin 128) :
    (outsAt0 m c t.val t.isLt).2.1 (ix2 b 0)
        = OnlineSoftmax.stepM ⊥ (fun n : Fin 512 => gT m c t (ix2 b n))
    ∧ (outsAt0 m c t.val t.isLt).2.2.1 (ix2 b 0)
        = OnlineSoftmax.stepL ⊥ 0 (fun n : Fin 512 => gT m c t (ix2 b n))
    ∧ (outsAt0 m c t.val t.isLt).2.2.2 (ix2 b k)
        = OnlineSoftmax.stepA ⊥ 0 (fun n : Fin 512 => gT m c t (ix2 b n)) (fun n : Fin 512 => hT m c t (ix3 b n k)) := by
  rw [outsAt0_A m c t h0 h1]
  dsimp only
  refine ⟨?_, ?_, ?_⟩
  · rw [Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)]
    refine (TileStep.m_step (gT m c t) (mxT m c t) (mx_fold m c t) _ b).trans ?_
    rw [TileStep.m_init b]
  · rw [Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)]
    refine (TileStep.l_step (gT m c t) (mxT m c t) (mx_fold m c t) _ _ b).trans ?_
    rw [TileStep.m_init b, TileStep.l_init b]
  · rw [Pieces.sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)]
    refine (TileStep.a_step (gT m c t) (mxT m c t) (mx_fold m c t) (hT m c t) _ _ b k).trans ?_
    rw [TileStep.m_init b, TileStep.a_init b k]

/-- A point that is not a half's first tile (nor its last): the three carried values are one step of the recurrence over what the point before left. -/
theorem step_B (c : Dev nD) (t : Fin cfg0.N) (h0 : ¬t.val % 16 = 0) (h1 : ¬t.val % 16 = 15) (b : Fin 16) (k : Fin 128) :
    (outsAt0 m c t.val t.isLt).2.1 (ix2 b 0)
        = OnlineSoftmax.stepM ((outsAt0 m c (t.val - 1) (Nat.lt_of_le_of_lt (Nat.sub_le _ _) t.isLt)).2.1 (ix2 b 0)) (fun n : Fin 512 => gT m c t (ix2 b n))
    ∧ (outsAt0 m c t.val t.isLt).2.2.1 (ix2 b 0)
        = OnlineSoftmax.stepL ((outsAt0 m c (t.val - 1) (Nat.lt_of_le_of_lt (Nat.sub_le _ _) t.isLt)).2.1 (ix2 b 0)) ((outsAt0 m c (t.val - 1) (Nat.lt_of_le_of_lt (Nat.sub_le _ _) t.isLt)).2.2.1 (ix2 b 0)) (fun n : Fin 512 => gT m c t (ix2 b n))
    ∧ (outsAt0 m c t.val t.isLt).2.2.2 (ix2 b k)
        = OnlineSoftmax.stepA ((outsAt0 m c (t.val - 1) (Nat.lt_of_le_of_lt (Nat.sub_le _ _) t.isLt)).2.1 (ix2 b 0)) ((outsAt0 m c (t.val - 1) (Nat.lt_of_le_of_lt (Nat.sub_le _ _) t.isLt)).2.2.2 (ix2 b k)) (fun n : Fin 512 => gT m c t (ix2 b n))
            (fun n : Fin 512 => hT m c t (ix3 b n k)) := by
  rw [outsAt0_B m c t h0 h1]
  dsimp only
  refine ⟨?_, ?_, ?_⟩
  · rw [Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact TileStep.m_step (gT m c t) (mxT m c t) (mx_fold m c t) _ b
  · rw [Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact TileStep.l_step (gT m c t) (mxT m c t) (mx_fold m c t) _ _ b
  · rw [Pieces.sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact TileStep.a_step (gT m c t) (mxT m c t) (mx_fold m c t) (hT m c t) _ _ b k

/-- A point that is not a half's first tile (the last one): the three carried values are one step of the recurrence over what the point before left. -/
theorem step_C (c : Dev nD) (t : Fin cfg0.N) (h0 : ¬t.val % 16 = 0) (h1 : t.val % 16 = 15) (b : Fin 16) (k : Fin 128) :
    (outsAt0 m c t.val t.isLt).2.1 (ix2 b 0)
        = OnlineSoftmax.stepM ((outsAt0 m c (t.val - 1) (Nat.lt_of_le_of_lt (Nat.sub_le _ _) t.isLt)).2.1 (ix2 b 0)) (fun n : Fin 512 => gT m c t (ix2 b n))
    ∧ (outsAt0 m c t.val t.isLt).2.2.1 (ix2 b 0)
        = OnlineSoftmax.stepL ((outsAt0 m c (t.val - 1) (Nat.lt_of_le_of_lt (Nat.sub_le _ _) t.isLt)).2.1 (ix2 b 0)) ((outsAt0 m c (t.val - 1) (Nat.lt_of_le_of_lt (Nat.sub_le _ _) t.isLt)).2.2.1 (ix2 b 0)) (fun n : Fin 512 => gT m c t (ix2 b n))
    ∧ (outsAt0 m c t.val t.isLt).2.2.2 (ix2 b k)
        = OnlineSoftmax.stepA ((outsAt0 m c (t.val - 1) (Nat.lt_of_le_of_lt (Nat.sub_le _ _) t.isLt)).2.1 (ix2 b 0)) ((outsAt0 m c (t.val - 1) (Nat.lt_of_le_of_lt (Nat.sub_le _ _) t.isLt)).2.2.2 (ix2 b k)) (fun n : Fin 512 => gT m c t (ix2 b n))
            (fun n : Fin 512 => hT m c t (ix3 b n k)) := by
  rw [outsAt0_C m c t h0 h1]
  dsimp only
  refine ⟨?_, ?_, ?_⟩
  · rw [Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact TileStep.m_step (gT m c t) (mxT m c t) (mx_fold m c t) _ b
  · rw [Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact TileStep.l_step (gT m c t) (mxT m c t) (mx_fold m c t) _ _ b
  · rw [Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    exact TileStep.a_step (gT m c t) (mxT m c t) (mx_fold m c t) (hT m c t) _ _ b k

/-- After a half's last tile the output block is weighted sum over normaliser. -/
theorem out_C (c : Dev nD) (t : Fin cfg0.N) (h0 : ¬t.val % 16 = 0) (h1 : t.val % 16 = 15) (b : Fin 16) (k : Fin 128) :
    (outsAt0 m c t.val t.isLt).1 (ix2 b k)
      = Ideal.div ((outsAt0 m c t.val t.isLt).2.2.2 (ix2 b k)) ((outsAt0 m c t.val t.isLt).2.2.1 (ix2 b 0)) := by
  rw [outsAt0_C m c t h0 h1]
  dsimp only
  rw [Pieces.out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact TileStep.out_at _ _ b k

/-- The carried values do not depend on how the point's number is written. -/
theorem outsAt0_congr (c : Dev nD) {n n' : ℕ} (e : n = n') (hn : n < cfg0.N) (hn' : n' < cfg0.N) :
    outsAt0 m c n hn = outsAt0 m c n' hn' := by
  subst e; rfl

/-- The scores and rows of point (bi, ni), as the recurrence's block number ni of graph 16·bi + b. -/
theorem scores_eq (c : Dev nD) (bi : Fin 2) (ni : Fin 16) (b : Fin 16) :
    (fun n : Fin 512 => gT m c (pt bi ni) (ix2 b n)) = sTile (m ((c : Thread nD τ).loc main_arg0)) (m ((c : Thread nD τ).loc main_arg1)) (m ((c : Thread nD τ).loc main_arg2)) (m ((c : Thread nD τ).loc main_arg3)) (m ((c : Thread nD τ).loc main_arg4)) (row bi b) ni.val := by
  funext n
  rw [tile_score m c bi ni b n, sTile_node]

theorem rows_eq (c : Dev nD) (bi : Fin 2) (ni : Fin 16) (b : Fin 16) (k : Fin 128) :
    (fun n : Fin 512 => hT m c (pt bi ni) (ix3 b n k)) = vTile (m ((c : Thread nD τ).loc main_arg0)) (m ((c : Thread nD τ).loc main_arg5)) (m ((c : Thread nD τ).loc main_arg6)) (m ((c : Thread nD τ).loc main_arg7)) (m ((c : Thread nD τ).loc main_arg8)) (row bi b) k ni.val := by
  funext n
  rw [tile_feat m c bi ni b n k, vTile_node]

/-- After tile ni of half bi the carried values of graph 16·bi + b (and output coordinate k) are the recurrence's
    state after ni + 1 blocks of that graph's scores and transformed rows. -/
theorem carried (c : Dev nD) (bi : Fin 2) (b : Fin 16) (k : Fin 128) (ni : ℕ) (h : ni < 16) :
    (outsAt0 m c (pt bi ⟨ni, h⟩).val (pt bi ⟨ni, h⟩).isLt).2.1 (ix2 b 0) = (OnlineSoftmax.run (sTile (m ((c : Thread nD τ).loc main_arg0)) (m ((c : Thread nD τ).loc main_arg1)) (m ((c : Thread nD τ).loc main_arg2)) (m ((c : Thread nD τ).loc main_arg3)) (m ((c : Thread nD τ).loc main_arg4)) (row bi b)) (vTile (m ((c : Thread nD τ).loc main_arg0)) (m ((c : Thread nD τ).loc main_arg5)) (m ((c : Thread nD τ).loc main_arg6)) (m ((c : Thread nD τ).loc main_arg7)) (m ((c : Thread nD τ).loc main_arg8)) (row bi b) k) (ni + 1)).1
    ∧ (outsAt0 m c (pt bi ⟨ni, h⟩).val (pt bi ⟨ni, h⟩).isLt).2.2.1 (ix2 b 0) = (OnlineSoftmax.run (sTile (m ((c : Thread nD τ).loc main_arg0)) (m ((c : Thread nD τ).loc main_arg1)) (m ((c : Thread nD τ).loc main_arg2)) (m ((c : Thread nD τ).loc main_arg3)) (m ((c : Thread nD τ).loc main_arg4)) (row bi b)) (vTile (m ((c : Thread nD τ).loc main_arg0)) (m ((c : Thread nD τ).loc main_arg5)) (m ((c : Thread nD τ).loc main_arg6)) (m ((c : Thread nD τ).loc main_arg7)) (m ((c : Thread nD τ).loc main_arg8)) (row bi b) k) (ni + 1)).2.1
    ∧ (outsAt0 m c (pt bi ⟨ni, h⟩).val (pt bi ⟨ni, h⟩).isLt).2.2.2 (ix2 b k) = (OnlineSoftmax.run (sTile (m ((c : Thread nD τ).loc main_arg0)) (m ((c : Thread nD τ).loc main_arg1)) (m ((c : Thread nD τ).loc main_arg2)) (m ((c : Thread nD τ).loc main_arg3)) (m ((c : Thread nD τ).loc main_arg4)) (row bi b)) (vTile (m ((c : Thread nD τ).loc main_arg0)) (m ((c : Thread nD τ).loc main_arg5)) (m ((c : Thread nD τ).loc main_arg6)) (m ((c : Thread nD τ).loc main_arg7)) (m ((c : Thread nD τ).loc main_arg8)) (row bi b) k) (ni + 1)).2.2 := by
  induction ni with
  | zero =>
    have h0 : (pt bi ⟨0, h⟩).val % 16 = 0 := by show (16 * bi.val + 0) % 16 = 0; omega
    have h1 : ¬(pt bi ⟨0, h⟩).val % 16 = 15 := by show ¬(16 * bi.val + 0) % 16 = 15; omega
    obtain ⟨e1, e2, e3⟩ := step_A m c (pt bi ⟨0, h⟩) h0 h1 b k
    rw [scores_eq m c bi ⟨0, h⟩ b] at e1 e2 e3
    rw [rows_eq m c bi ⟨0, h⟩ b k] at e3
    exact ⟨e1, e2, e3⟩
  | succ ni ih =>
    obtain ⟨i1, i2, i3⟩ := ih (by omega)
    have hprev : (pt bi ⟨ni + 1, h⟩).val - 1 = (pt bi ⟨ni, by omega⟩).val := by
      rw [pt_val, pt_val]; show 16 * bi.val + (ni + 1) - 1 = 16 * bi.val + ni; omega
    have P : outsAt0 m c ((pt bi ⟨ni + 1, h⟩).val - 1)
          (Nat.lt_of_le_of_lt (Nat.sub_le _ _) (pt bi ⟨ni + 1, h⟩).isLt)
        = outsAt0 m c (pt bi ⟨ni, by omega⟩).val (pt bi ⟨ni, by omega⟩).isLt :=
      outsAt0_congr m c hprev _ _
    have h0 : ¬(pt bi ⟨ni + 1, h⟩).val % 16 = 0 := by
      rw [pt_val]; show ¬(16 * bi.val + (ni + 1)) % 16 = 0; omega
    have key : (outsAt0 m c (pt bi ⟨ni + 1, h⟩).val (pt bi ⟨ni + 1, h⟩).isLt).2.1 (ix2 b 0)
          = OnlineSoftmax.stepM ((outsAt0 m c (pt bi ⟨ni, by omega⟩).val (pt bi ⟨ni, by omega⟩).isLt).2.1 (ix2 b 0))
              (fun n : Fin 512 => gT m c (pt bi ⟨ni + 1, h⟩) (ix2 b n))
        ∧ (outsAt0 m c (pt bi ⟨ni + 1, h⟩).val (pt bi ⟨ni + 1, h⟩).isLt).2.2.1 (ix2 b 0)
          = OnlineSoftmax.stepL ((outsAt0 m c (pt bi ⟨ni, by omega⟩).val (pt bi ⟨ni, by omega⟩).isLt).2.1 (ix2 b 0))
              ((outsAt0 m c (pt bi ⟨ni, by omega⟩).val (pt bi ⟨ni, by omega⟩).isLt).2.2.1 (ix2 b 0))
              (fun n : Fin 512 => gT m c (pt bi ⟨ni + 1, h⟩) (ix2 b n))
        ∧ (outsAt0 m c (pt bi ⟨ni + 1, h⟩).val (pt bi ⟨ni + 1, h⟩).isLt).2.2.2 (ix2 b k)
          = OnlineSoftmax.stepA ((outsAt0 m c (pt bi ⟨ni, by omega⟩).val (pt bi ⟨ni, by omega⟩).isLt).2.1 (ix2 b 0))
              ((outsAt0 m c (pt bi ⟨ni, by omega⟩).val (pt bi ⟨ni, by omega⟩).isLt).2.2.2 (ix2 b k))
              (fun n : Fin 512 => gT m c (pt bi ⟨ni + 1, h⟩) (ix2 b n))
              (fun n : Fin 512 => hT m c (pt bi ⟨ni + 1, h⟩) (ix3 b n k)) := by
      by_cases h1 : (pt bi ⟨ni + 1, h⟩).val % 16 = 15
      · have s := step_C m c (pt bi ⟨ni + 1, h⟩) h0 h1 b k
        rw [P] at s
        exact s
      · have s := step_B m c (pt bi ⟨ni + 1, h⟩) h0 h1 b k
        rw [P] at s
        exact s
    obtain ⟨e1, e2, e3⟩ := key
    rw [scores_eq m c bi ⟨ni + 1, h⟩ b, i1] at e1
    rw [scores_eq m c bi ⟨ni + 1, h⟩ b, i1, i2] at e2
    rw [scores_eq m c bi ⟨ni + 1, h⟩ b, rows_eq m c bi ⟨ni + 1, h⟩ b k, i1, i3] at e3
    exact ⟨e1, e2, e3⟩

/-- After the run, row 16·bi + b of the result array is that graph's summary — given real scores and rows, which the
    recurrence's law needs. -/
theorem result_row (c : Dev nD)
    (hs : ∀ b n, ∃ r : ℝ, score (m ((c : Thread nD τ).loc main_arg0)) (m ((c : Thread nD τ).loc main_arg1)) (m ((c : Thread nD τ).loc main_arg2)) (m ((c : Thread nD τ).loc main_arg3)) (m ((c : Thread nD τ).loc main_arg4)) b n = (r : EReal))
    (hv : ∀ b n k, ∃ r : ℝ, feat (m ((c : Thread nD τ).loc main_arg0)) (m ((c : Thread nD τ).loc main_arg5)) (m ((c : Thread nD τ).loc main_arg6)) (m ((c : Thread nD τ).loc main_arg7)) (m ((c : Thread nD τ).loc main_arg8)) b n k = (r : EReal))
    (bi : Fin 2) (b : Fin 16) (k : Fin 128) :
    (dats m 0 c).arrAt 6 cfg0.N (ix2 (row bi b) k) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row bi b) k := by
  rw [Geometry.final_at m c bi b k]
  have h0 : ¬(pt bi 15).val % 16 = 0 := by rw [pt_val]; show ¬(16 * bi.val + 15) % 16 = 0; omega
  have h1 : (pt bi 15).val % 16 = 15 := by rw [pt_val]; show (16 * bi.val + 15) % 16 = 15; omega
  rw [out_C m c (pt bi 15) h0 h1 b k]
  obtain ⟨_, e2, e3⟩ := carried m c bi b k 15 (by norm_num)
  rw [show pt bi 15 = pt bi ⟨15, by norm_num⟩ from rfl, e3, e2]
  exact pooled_eq_run _ _ _ _ _ _ _ _ _ hs hv (row bi b) k

/-- The whole result array after the run. -/
theorem result_eq (c : Dev nD)
    (hs : ∀ b n, ∃ r : ℝ, score (m ((c : Thread nD τ).loc main_arg0)) (m ((c : Thread nD τ).loc main_arg1)) (m ((c : Thread nD τ).loc main_arg2)) (m ((c : Thread nD τ).loc main_arg3)) (m ((c : Thread nD τ).loc main_arg4)) b n = (r : EReal))
    (hv : ∀ b n k, ∃ r : ℝ, feat (m ((c : Thread nD τ).loc main_arg0)) (m ((c : Thread nD τ).loc main_arg5)) (m ((c : Thread nD τ).loc main_arg6)) (m ((c : Thread nD τ).loc main_arg7)) (m ((c : Thread nD τ).loc main_arg8)) b n k = (r : EReal)) :
    (dats m 0 c).arrAt 6 cfg0.N = GatedPool.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  obtain ⟨B, k, rfl⟩ : ∃ (B : Fin 32) (k : Fin 128), i = ix2 B k := ⟨i 0, i 1, eq_ix2 i⟩
  have hB : B = row ⟨B.val / 16, by have := B.isLt; omega⟩ ⟨B.val % 16, Nat.mod_lt _ (by norm_num)⟩ :=
    Fin.ext (by show B.val = 16 * (B.val / 16) + B.val % 16; omega)
  rw [result_apply, hB]
  exact result_row m c hs hv _ _ k

/-- Every weakly fair execution of the kernel's program ends with its result at the gated pooling of the argument
    arrays, and the arguments unchanged — for real inputs. -/
theorem run (ρ : Dev nD → PrngReg)
    (hs : ∀ (c : Dev nD) b n, ∃ r : ℝ, score (m ((c : Thread nD τ).loc main_arg0)) (m ((c : Thread nD τ).loc main_arg1)) (m ((c : Thread nD τ).loc main_arg2)) (m ((c : Thread nD τ).loc main_arg3)) (m ((c : Thread nD τ).loc main_arg4)) b n = (r : EReal))
    (hv : ∀ (c : Dev nD) b n k, ∃ r : ℝ, feat (m ((c : Thread nD τ).loc main_arg0)) (m ((c : Thread nD τ).loc main_arg5)) (m ((c : Thread nD τ).loc main_arg6)) (m ((c : Thread nD τ).loc main_arg7)) (m ((c : Thread nD τ).loc main_arg8)) b n k = (r : EReal)) :
    θ_run defs (onTc (τ := τ) (main (F := Ideal))) ⟨m, fun _ => 0, ρ⟩ fun r => ∀ c : Dev nD,
      r.2.mem ((c : Thread nD τ).loc main_v14) = GatedPool.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_eq m c (hs c) (hv c)), (h c).2⟩)
    (Cert.KernelIdeal.Value.run_blocks m ρ)

end Cert.KernelIdeal.Points

end
-- ==== Proof.Reference.lean ====
/-
  The reference program computes the gated pooling directly: both networks on every node, the softmax of the gate
  scores over each graph's nodes (shifted by the graph's maximum score), and the weighted sum of the transformed rows.
-/
import proofs.«403798_j7215545057977_3_alg».proof.Proof.Gen.ReferenceIdeal.Run
import proofs.«403798_j7215545057977_3_alg».proof.Proof.Gen.ReferenceIdeal.Read
import proofs.«403798_j7215545057977_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx GatedPool
open Cert.ReferenceIdeal.Read
open scoped BigOperators

/-! ## The constants -/

/-- The word of 1.0 denotes the real number one. -/
theorem one_word : Ideal.ofBits .f32 0x3F800000#32 = 1 := by
  simp [Ideal.ofBits, Ideal.ieee, -EReal.coe_mul]; norm_num

/-- The word of -∞ denotes the least extended real. -/
theorem negInf_word : Ideal.ofBits .f32 0xFF800000#32 = ⊥ := by
  simp [Ideal.ofBits, Ideal.ieee]

section
variable (x0 : (⟨S32x8192x128, .f32⟩ : BufTy).Contents (Elt Ideal)) (x1 : (⟨S128x128, .f32⟩ : BufTy).Contents (Elt Ideal))
  (x2 : (⟨S128, .f32⟩ : BufTy).Contents (Elt Ideal)) (x3 : (⟨S128x1, .f32⟩ : BufTy).Contents (Elt Ideal))
  (x4 : (⟨S1, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-! ## One network's hidden layer -/

/-- The first linear layer at node n of graph b, hidden unit j: the node's row against column j of the weights,
    plus the bias. -/
theorem firstLayer (b : Fin 32) (n : Fin 8192) (j : Fin 128) :
    val_main_v3 (F := Ideal) x0 x1 x2 (ix3 b n j) = (∑ d : Fin 128, x0 (ix3 b n d) * x1 (ix2 d j)) + x2 (ix1 j) := by
  have el : ∀ d : Fin 128, lidx_main_v0 (ix3 b n j) d = ix3 b n d := fun d =>
    funext fun a => by match a with | ⟨0, _⟩ => rfl | ⟨1, _⟩ => rfl | ⟨2, _⟩ => rfl
  have er : ∀ d : Fin 128, ridx_main_v0 (ix3 b n j) d = ix2 d j := fun d =>
    funext fun a => by match a with | ⟨0, _⟩ => rfl | ⟨1, _⟩ => rfl
  have eb : idx_main_v1 (idx_main_v2 (ix3 b n j)) = ix1 j :=
    funext fun a => by match a with | ⟨0, _⟩ => rfl
  rw [val_main_v3_apply, val_main_v0_apply, val_main_v2_apply, val_main_v1_apply]
  simp only [el, er, eb, Ideal.addf_def]

/-- The hidden layer after its activation: z · 1 / (1 + e^(-z)) is silu z. -/
theorem hidden (b : Fin 32) (n : Fin 8192) (j : Fin 128) :
    val_main_v4 (F := Ideal) x0 x1 x2 (ix3 b n j)
      = silu ((∑ d : Fin 128, x0 (ix3 b n d) * x1 (ix2 d j)) + x2 (ix1 j)) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, firstLayer]
  simp only [Ideal.mulf_def, Ideal.hostDivf_def, Ideal.addf_def, Ideal.hostUnary_exp_def, Ideal.hostNegf_def,
    Ideal.negf_def, Ideal.ofBits_def, one_word]
  rfl

/-- The feature network's hidden layer is the gate network's, read with the feature network's weights. -/
theorem hidden' (b : Fin 32) (n : Fin 8192) (j : Fin 128) :
    val_main_v13 (F := Ideal) x0 x5 x6 (ix3 b n j)
      = silu ((∑ d : Fin 128, x0 (ix3 b n d) * x5 (ix2 d j)) + x6 (ix1 j)) :=
  hidden x0 x5 x6 b n j

/-! ## The two networks' outputs -/

/-- The gate network's output at node n of graph b is the node's score. -/
theorem score_eq (b : Fin 32) (n : Fin 8192) :
    val_main_v8 (F := Ideal) x0 x1 x2 x3 x4 (ix3 b n 0) = score x0 x1 x2 x3 x4 b n := by
  have el : ∀ j : Fin 128, lidx_main_v5 (ix3 b n (0 : Fin 1)) j = ix3 b n j := fun j =>
    funext fun a => by match a with | ⟨0, _⟩ => rfl | ⟨1, _⟩ => rfl | ⟨2, _⟩ => rfl
  have er : ∀ j : Fin 128, ridx_main_v5 (ix3 b n (0 : Fin 1)) j = ix2 j 0 := fun j =>
    funext fun a => by match a with | ⟨0, _⟩ => rfl | ⟨1, _⟩ => rfl
  have eb : idx_main_v6 (idx_main_v7 (ix3 b n (0 : Fin 1))) = ix1 0 :=
    funext fun a => by match a with | ⟨0, _⟩ => rfl
  rw [val_main_v8_apply, val_main_v5_apply, val_main_v7_apply, val_main_v6_apply]
  simp only [el, er, eb, hidden, Ideal.addf_def]
  rfl

/-- The feature network's output at node n of graph b, coordinate k, is the transformed row's entry. -/
theorem feat_eq (b : Fin 32) (n : Fin 8192) (k : Fin 128) :
    val_main_v17 (F := Ideal) x0 x5 x6 x7 x8 (ix3 b n k) = feat x0 x5 x6 x7 x8 b n k := by
  have el : ∀ j : Fin 128, lidx_main_v14 (ix3 b n k) j = ix3 b n j := fun j =>
    funext fun a => by match a with | ⟨0, _⟩ => rfl | ⟨1, _⟩ => rfl | ⟨2, _⟩ => rfl
  have er : ∀ j : Fin 128, ridx_main_v14 (ix3 b n k) j = ix2 j k := fun j =>
    funext fun a => by match a with | ⟨0, _⟩ => rfl | ⟨1, _⟩ => rfl
  have eb : idx_main_v15 (idx_main_v16 (ix3 b n k)) = ix1 k :=
    funext fun a => by match a with | ⟨0, _⟩ => rfl
  rw [val_main_v17_apply, val_main_v14_apply, val_main_v16_apply, val_main_v15_apply]
  simp only [el, er, eb, hidden', Ideal.addf_def]
  rfl

/-! ## The softmax over a graph's nodes -/

/-- Graph b's column index with node k put back on the reduced axis is (b, k, 0). -/
theorem lift_node (h : S32x8192x1.Reduces [1] S32x1) (b : Fin 32) (k : Fin (S32x8192x1.size 1)) :
    h.lift (ix2 b (0 : Fin 1)) k = ix3 b (⟨k.val, k.isLt⟩ : Fin 8192) (0 : Fin 1) := by
  funext c; apply Fin.ext
  fin_cases c <;> rfl

/-- The shift of graph b: the maximum of its nodes' scores (the fold of max from the least element; the second
    maximum against the least element changes nothing). -/
theorem shift_eq (b : Fin 32) :
    val_main_v20 (F := Ideal) x0 x1 x2 x3 x4 (ix2 b 0)
      = (Finset.univ : Finset (Fin 8192)).fold max ⊥ (score x0 x1 x2 x3 x4 b) := by
  have h : S32x8192x1.Reduces [1] S32x1 := by decide
  have hf : (val_main_v8 (F := Ideal) x0 x1 x2 x3 x4 ∘ h.lift (ix2 b (0 : Fin 1))) = score x0 x1 x2 x3 x4 b :=
    funext fun k => by
      show val_main_v8 (F := Ideal) x0 x1 x2 x3 x4 (h.lift (ix2 b (0 : Fin 1)) k) = _
      rw [lift_node]
      exact score_eq x0 x1 x2 x3 x4 b k
  rw [val_main_v20_apply, val_main_v19_apply, val_main_cst_0_apply]
  unfold val_main_v18
  rw [Host.reduce_eq_fold_single FloatOps.maximumf _ _ reducesTo_S32x8192x1_S32x1_d1 h h_S_, hf, val_main_cst_apply]
  simp only [Ideal.ofBits_def, negInf_word, Ideal.maximumf_def]
  exact max_eq_right bot_le

/-- The numerator of node n's weight: e to the score less the graph's shift. -/
theorem expShift (b : Fin 32) (n : Fin 8192) :
    val_main_v24 (F := Ideal) x0 x1 x2 x3 x4 (ix3 b n 0)
      = Ideal.exp (score x0 x1 x2 x3 x4 b n - (Finset.univ : Finset (Fin 8192)).fold max ⊥ (score x0 x1 x2 x3 x4 b)) := by
  have e : idx_main_v21 (idx_main_v22 (ix3 b n (0 : Fin 1))) = ix2 b 0 :=
    funext fun a => by match a with | ⟨0, _⟩ => rfl | ⟨1, _⟩ => rfl
  rw [val_main_v24_apply, val_main_v23_apply, val_main_v22_apply, val_main_v21_apply, e, shift_eq, score_eq]
  rfl

/-- The denominator of graph b's weights: the sum of the numerators over the graph's nodes. -/
theorem denom (b : Fin 32) :
    val_main_v25 (F := Ideal) x0 x1 x2 x3 x4 (ix2 b 0)
      = ∑ n' : Fin 8192, Ideal.exp (score x0 x1 x2 x3 x4 b n' - (Finset.univ : Finset (Fin 8192)).fold max ⊥ (score x0 x1 x2 x3 x4 b)) := by
  have e : ∀ n' : Fin 8192, idx_main_v25 (ix2 b (0 : Fin 1)) n' = ix3 b n' 0 := fun n' =>
    funext fun a => by match a with | ⟨0, _⟩ => rfl | ⟨1, _⟩ => rfl | ⟨2, _⟩ => rfl
  rw [val_main_v25_apply, val_main_cst_1_apply]
  simp only [e, expShift, Ideal.ofBits_def, Ideal.ofBits_zero_f32, zero_add]

/-- Node n's softmax weight in graph b. -/
theorem weight (b : Fin 32) (n : Fin 8192) :
    val_main_v28 (F := Ideal) x0 x1 x2 x3 x4 (ix3 b n 0)
      = Ideal.div (Ideal.exp (score x0 x1 x2 x3 x4 b n - (Finset.univ : Finset (Fin 8192)).fold max ⊥ (score x0 x1 x2 x3 x4 b)))
          (∑ n' : Fin 8192, Ideal.exp (score x0 x1 x2 x3 x4 b n' - (Finset.univ : Finset (Fin 8192)).fold max ⊥ (score x0 x1 x2 x3 x4 b))) := by
  have e : idx_main_v26 (idx_main_v27 (ix3 b n (0 : Fin 1))) = ix2 b 0 :=
    funext fun a => by match a with | ⟨0, _⟩ => rfl | ⟨1, _⟩ => rfl
  rw [val_main_v28_apply, val_main_v27_apply, val_main_v26_apply, e, denom, expShift]
  rfl

/-! ## The whole result -/

/-- The reference's result array is the gated pooling of its nine arguments. -/
theorem result_eq :
    val_main_v31 (F := Ideal) x0 x1 x2 x3 x4 x5 x6 x7 x8 = GatedPool.result x0 x1 x2 x3 x4 x5 x6 x7 x8 := by
  funext i
  obtain ⟨b, k, rfl⟩ : ∃ (b : Fin 32) (k : Fin 128), i = ix2 b k := ⟨i 0, i 1, eq_ix2 i⟩
  have e : ∀ n : Fin 8192, idx_main_v31 (ix2 b k) n = ix3 b n k := fun n =>
    funext fun a => by match a with | ⟨0, _⟩ => rfl | ⟨1, _⟩ => rfl | ⟨2, _⟩ => rfl
  have e' : ∀ n : Fin 8192, idx_main_v29 (ix3 b n k) = ix3 b n 0 := fun n =>
    funext fun a => by match a with | ⟨0, _⟩ => rfl | ⟨1, _⟩ => rfl | ⟨2, _⟩ => rfl
  rw [GatedPool.result_apply, val_main_v31_apply, val_main_cst_2_apply]
  simp only [e, val_main_v30_apply, val_main_v29_apply, e', weight, feat_eq, Ideal.ofBits_def, Ideal.ofBits_zero_f32,
    zero_add, Ideal.mulf_def]
  rfl

end

/-- Every weakly fair execution of the reference ends with its result at the gated pooling of its arguments, and
    the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
          = GatedPool.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((val_main_v31_eq (F := Ideal) m c).trans (result_eq _ _ _ _ _ _ _ _ _)), (h c).2⟩)
    (Cert.ReferenceIdeal.Value.run (F := Ideal) m ρ)

end Cert.ReferenceIdeal.RefValue

end
-- ==== Proof.Finite.lean ====
/-
  The precondition says every input entry is finite: neither infinity, so a real number.
-/
import proofs.«403798_j7215545057977_3_alg».proof.Defs
import proofs.«403798_j7215545057977_3_alg».proof.Proof.Gen.Pre_finite_inputs
import proofs.«403798_j7215545057977_3_alg».proof.Proof.Gen.KernelIdeal
import proofs.«403798_j7215545057977_3_alg».proof.Proof.Spec
import Idealize.ShloMosaic.Lib.ReduceAll
import Idealize.ShloMosaic.Lib.ValueIdx

noncomputable section

namespace Cert.Finite

open Cert.KernelIdeal Idealize.ShloMosaic Idealize.ShloMosaic.TcCoe Idealize.SL.Sem
open Idealize.ShloMosaic.ValueIdx GatedPool

/-- The rank-0 shape has a single index. -/
instance subsingleton_idx0 : Subsingleton (⟨0, ![]⟩ : Shape).Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max x (-x) compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The pointwise "and" of two one-bit words at the single index is 1 exactly when both are. -/
theorem and_at {x y : IVec (⟨0, ![]⟩ : Shape) 1} : andi x y ix0 = 1#1 ↔ x ix0 = 1#1 ∧ y ix0 = 1#1 :=
  IntOp.andi_eq_one

/-- An array for which "all |x| < +∞" evaluates to 1 has only real entries: the conjunction over all
    indices gives the comparison at each index, and the comparison at an index excludes both infinities. -/
theorem allReal_of_all {s : Shape} {axes : List (Fin s.rank)} (v : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (init : IVec (⟨0, ![]⟩ : Shape) 1)
    (h : Host.reduce IntOp.andi
          (cmpf .olt (Host.absf v) (broadcastInDim s ![] hb (constant (F := Ideal) (⟨0, ![]⟩ : Shape) .f32 0x7F800000#32)))
          init hr hu ix0 = 1#1) :
    AllReal (s := s) v := by
  intro i
  have hi := Host.reduce_andi_all _ init hr hu ix0 h i
  exact real_of_abs_lt_inf (v i) hi

/-- Under the precondition each of the nine argument arrays has only real entries. -/
theorem args_real [hKernelIdeal : Cert.KernelIdeal.Facts] [hPre : Cert.Pre_finite_inputs.Facts]
    (m : (ℓ : Loc nD τ sig) → Buf (Elt Ideal) ℓ) (hpre : Cert.Pre_KernelIdeal m) (c : Dev nD) :
    AllReal (m ((c.tc : Thread nD τ).loc main_arg0)) ∧ AllReal (m ((c.tc : Thread nD τ).loc main_arg1))
    ∧ AllReal (m ((c.tc : Thread nD τ).loc main_arg2)) ∧ AllReal (m ((c.tc : Thread nD τ).loc main_arg3))
    ∧ AllReal (m ((c.tc : Thread nD τ).loc main_arg4)) ∧ AllReal (m ((c.tc : Thread nD τ).loc main_arg5))
    ∧ AllReal (m ((c.tc : Thread nD τ).loc main_arg6)) ∧ AllReal (m ((c.tc : Thread nD τ).loc main_arg7))
    ∧ AllReal (m ((c.tc : Thread nD τ).loc main_arg8)) := by
  have h := congrFun (hpre c) ValueIdx.ix0
  dsimp only [Cert.Pre_finite_inputs.fn, Cert.Pre_finite_inputs.fn_part1, Cert.Pre_finite_inputs.fn_part2] at h
  -- the predicate is a left-nested conjunction of the nine "all |x| < +∞" tests
  obtain ⟨h, h8⟩ := and_at.1 h
  obtain ⟨h, h7⟩ := and_at.1 h
  obtain ⟨h, h6⟩ := and_at.1 h
  obtain ⟨h, h5⟩ := and_at.1 h
  obtain ⟨h, h4⟩ := and_at.1 h
  obtain ⟨h, h3⟩ := and_at.1 h
  obtain ⟨h, h2⟩ := and_at.1 h
  obtain ⟨h0, h1⟩ := and_at.1 h
  exact ⟨allReal_of_all _ _ _ _ _ h0, allReal_of_all _ _ _ _ _ h1, allReal_of_all _ _ _ _ _ h2,
    allReal_of_all _ _ _ _ _ h3, allReal_of_all _ _ _ _ _ h4, allReal_of_all _ _ _ _ _ h5,
    allReal_of_all _ _ _ _ _ h6, allReal_of_all _ _ _ _ _ h7, allReal_of_all _ _ _ _ _ h8⟩

end Cert.Finite

end
-- ==== Proof.SpecReal.lean ====
/-
  With real (finite) node features, weights and biases every gate score and every transformed coordinate is a real
  number: sums and products of reals are real, and so is silu of a real.
-/
import proofs.«403798_j7215545057977_3_alg».proof.Proof.Spec
import Mathlib.Data.EReal.Operations
import Mathlib.Algebra.BigOperators.Group.Finset.Basic

noncomputable section

namespace GatedPool

open Idealize.ShloMosaic Idealize.ShloMosaic.ValueIdx
open scoped BigOperators

namespace SpecReal

/-- A finite sum of extended reals each of which is a real number is a real number. -/
theorem sum_real {ι : Type*} (t : Finset ι) (f : ι → EReal) (hf : ∀ i, ∃ r : ℝ, f i = (r : EReal)) :
    ∃ r : ℝ, ∑ i ∈ t, f i = (r : EReal) := by
  classical
  induction t using Finset.induction_on with
  | empty => exact ⟨0, by simp⟩
  | insert a t ha ih =>
    obtain ⟨p, hp⟩ := hf a
    obtain ⟨q, hq⟩ := ih
    exact ⟨p + q, by rw [Finset.sum_insert ha, hp, hq, EReal.coe_add]⟩

/-- silu of a real number z is the real number z · (1 + e^(-z))⁻¹. -/
theorem silu_real (z : ℝ) : silu (z : EReal) = ((z * (1 + Real.exp (-z))⁻¹ : ℝ) : EReal) := by
  rw [silu, Ideal.logistic_coe, ← EReal.coe_mul]

end SpecReal

theorem twoLayer_real (row : Fin 128 → EReal) (W : Fin 128 → Fin 128 → EReal) (bias : Fin 128 → EReal) (w : Fin 128 → EReal)
    (hrow : ∀ d, ∃ r : ℝ, row d = (r : EReal)) (hW : ∀ d j, ∃ r : ℝ, W d j = (r : EReal))
    (hbias : ∀ j, ∃ r : ℝ, bias j = (r : EReal)) (hw : ∀ j, ∃ r : ℝ, w j = (r : EReal)) :
    ∃ r : ℝ, twoLayer row W bias w = (r : EReal) := by
  unfold twoLayer
  refine SpecReal.sum_real _ _ fun j => ?_
  -- the inner product of the row with column j is a real number
  obtain ⟨s, hs⟩ : ∃ s : ℝ, ∑ d : Fin 128, row d * W d j = (s : EReal) :=
    SpecReal.sum_real _ _ fun d => by
      obtain ⟨x, hx⟩ := hrow d
      obtain ⟨y, hy⟩ := hW d j
      exact ⟨x * y, by rw [hx, hy, EReal.coe_mul]⟩
  obtain ⟨c, hc⟩ := hbias j
  obtain ⟨v, hv⟩ := hw j
  refine ⟨(s + c) * (1 + Real.exp (-(s + c)))⁻¹ * v, ?_⟩
  rw [hs, hc, hv, ← EReal.coe_add, SpecReal.silu_real, ← EReal.coe_mul]

section
variable (X : (⟨3, ![32, 8192, 128]⟩ : Shape).Idx → EReal)
  (Wg1 : (⟨2, ![128, 128]⟩ : Shape).Idx → EReal) (bg1 : (⟨1, ![128]⟩ : Shape).Idx → EReal)
  (Wg2 : (⟨2, ![128, 1]⟩ : Shape).Idx → EReal) (bg2 : (⟨1, ![1]⟩ : Shape).Idx → EReal)
  (Wn1 : (⟨2, ![128, 128]⟩ : Shape).Idx → EReal) (bn1 : (⟨1, ![128]⟩ : Shape).Idx → EReal)
  (Wn2 : (⟨2, ![128, 128]⟩ : Shape).Idx → EReal) (bn2 : (⟨1, ![128]⟩ : Shape).Idx → EReal)

theorem score_real (hX : AllReal X) (hWg1 : AllReal Wg1) (hbg1 : AllReal bg1) (hWg2 : AllReal Wg2) (hbg2 : AllReal bg2)
    (b : Fin 32) (n : Fin 8192) : ∃ r : ℝ, score X Wg1 bg1 Wg2 bg2 b n = (r : EReal) := by
  obtain ⟨t, ht⟩ := twoLayer_real (fun d => X (ix3 b n d)) (fun d k => Wg1 (ix2 d k)) (fun k => bg1 (ix1 k))
    (fun k => Wg2 (ix2 k 0)) (fun d => hX _) (fun d k => hWg1 _) (fun k => hbg1 _) (fun k => hWg2 _)
  obtain ⟨c, hc⟩ := hbg2 (ix1 0)
  exact ⟨t + c, by rw [score, ht, hc, EReal.coe_add]⟩

theorem feat_real (hX : AllReal X) (hWn1 : AllReal Wn1) (hbn1 : AllReal bn1) (hWn2 : AllReal Wn2) (hbn2 : AllReal bn2)
    (b : Fin 32) (n : Fin 8192) (k : Fin 128) : ∃ r : ℝ, feat X Wn1 bn1 Wn2 bn2 b n k = (r : EReal) := by
  obtain ⟨t, ht⟩ := twoLayer_real (fun d => X (ix3 b n d)) (fun d j => Wn1 (ix2 d j)) (fun j => bn1 (ix1 j))
    (fun j => Wn2 (ix2 j k)) (fun d => hX _) (fun d j => hWn1 _) (fun j => hbn1 _) (fun j => hWn2 _)
  obtain ⟨c, hc⟩ := hbn2 (ix1 k)
  exact ⟨t + c, by rw [feat, ht, hc, EReal.coe_add]⟩

end

end GatedPool

end
-- ==== Proof.lean ====
/-
  The kernel pools each graph's node features with softmax weights: two small networks give every node a gate score
  and a transformed feature row, and the graph's summary is the sum of the rows weighted by the softmax of the scores
  over the graph's nodes.  The reference computes exactly that, node by node and then one softmax per graph.  The
  kernel streams the nodes in 16 tiles of 512 per half-batch of 16 graphs, runs both networks on a tile through two
  fused matrix products (first-layer weights side by side; second-layer weights block diagonal, the gate's single
  column recovered by summing an otherwise zero half), and keeps per graph a running maximum, a normaliser and a
  weighted sum that are rescaled whenever the maximum grows; after the last tile it divides the weighted sum by the
  normaliser.

  On the extended reals both are the same function of the arguments:
    · a change of float format is the identity, a matrix product into the zero accumulator is the plain sum of
      products, and the zero blocks of the fused second-layer weights contribute x · 0 = 0, so a tile's scores and rows
      are the two networks' (no finiteness needed);
    · the carried values after tile ni are the running-maximum recurrence's state after ni + 1 blocks, by induction
      over the half's grid points;
    · the recurrence's law — weighted sum over normaliser after all blocks is the softmax-weighted sum — needs the
      scores and rows to be real numbers, which they are when every input entry is finite: the one place the
      precondition is used.
  The word-level kernel's and the idealized kernel's frames are the generated ones; the reference's frame is its
  generated run with the result dropped; the idealization rewrote nothing, so `preserves` is trivial.
-/
import proofs.«403798_j7215545057977_3_alg».proof.Proof.Gen.Kernel
import proofs.«403798_j7215545057977_3_alg».proof.Proof.Gen.Kernel.Frame
import proofs.«403798_j7215545057977_3_alg».proof.Proof.Gen.KernelIdeal
import proofs.«403798_j7215545057977_3_alg».proof.Proof.Gen.KernelIdeal.Frame
import proofs.«403798_j7215545057977_3_alg».proof.Proof.Gen.KernelIdeal.Value
import proofs.«403798_j7215545057977_3_alg».proof.Proof.Gen.ReferenceIdeal
import proofs.«403798_j7215545057977_3_alg».proof.Proof.Gen.ReferenceIdeal.Run
import proofs.«403798_j7215545057977_3_alg».proof.Proof.Gen.Pre_finite_inputs
import proofs.«403798_j7215545057977_3_alg».proof.Proof.Points
import proofs.«403798_j7215545057977_3_alg».proof.Proof.Reference
import proofs.«403798_j7215545057977_3_alg».proof.Proof.Finite
import proofs.«403798_j7215545057977_3_alg».proof.Proof.SpecReal
import proofs.«403798_j7215545057977_3_alg».proof.Defs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at the gated pooling of the (agreeing, finite) arguments. -/
theorem algebraic : Cert.algebraic_KernelIdeal_ReferenceIdeal := by
  intro m ρ m' ρ' hpre hagree
  have hreal := fun c => Cert.Finite.args_real m hpre c
  refine ⟨_, Cert.KernelIdeal.Points.run m ρ (fun c b n => ?_) (fun c b n k => ?_), ?_⟩
  · obtain ⟨h0, h1, h2, h3, h4, _⟩ := hreal c
    exact GatedPool.score_real _ _ _ _ _ h0 h1 h2 h3 h4 b n
  · obtain ⟨h0, _, _, _, _, h5, h6, h7, h8⟩ := hreal c
    exact GatedPool.feat_real _ _ _ _ _ h0 h5 h6 h7 h8 b n k
  · refine (θ_run Cert.ReferenceIdeal.defs _ _).mono (fun _ h c => ⟨(h c).1.trans ?_, (h c).2⟩)
      (Cert.ReferenceIdeal.RefValue.run_result m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
